-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_cst_1)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_cst_1) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_cst_3) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S16x128x1024 : Shape := ⟨3, ![16, 128, 1024]⟩
abbrev S16x128 : Shape := ⟨2, ![16, 128]⟩
abbrev S16x1024x128 : Shape := ⟨3, ![16, 1024, 128]⟩
abbrev S16x1024 : Shape := ⟨2, ![16, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S16x128x1024 : S_.BroadcastsInDim S16x128x1024 (![] : Fin 0 → Fin S16x128x1024.rank)
  reducesTo_S16x128x1024_S_d0_1_2 : S16x128x1024.ReducesTo [0, 1, 2] S_
  bcast_S_S16x128 : S_.BroadcastsInDim S16x128 (![] : Fin 0 → Fin S16x128.rank)
  reducesTo_S16x128_S_d0_1 : S16x128.ReducesTo [0, 1] S_
  bcast_S_S16x1024x128 : S_.BroadcastsInDim S16x1024x128 (![] : Fin 0 → Fin S16x1024x128.rank)
  reducesTo_S16x1024x128_S_d0_1_2 : S16x1024x128.ReducesTo [0, 1, 2] S_
  bcast_S_S16x1024 : S_.BroadcastsInDim S16x1024 (![] : Fin 0 → Fin S16x1024.rank)
  reducesTo_S16x1024_S_d0_1 : S16x1024.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : IVec S8192 32) (main_arg5 : FVec F S16x1024 .f32) (main_v13 : IVec S_ 1) (main_v16 : IVec S16x1024x128 1) : IVec S_ 1 :=
  let main_c_5 : IVec S_ 1 := constantI S_ 1 1#1
  let main_v17 : IVec S_ 1 := (fun x v => Host.reduce IntOp.andi x v reducesTo_S16x1024x128_S_d0_1_2 h_S_) main_v16 main_c_5
  let main_v18 : IVec S_ 1 := andi main_v13 main_v17
  let main_v19 : FVec F S16x1024 .f32 := Host.absf main_arg5
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  let main_c_8 : IVec S_ 32 := constantI S_ 32 0#32
  let main_v24 : IVec S8192 32 := broadcastInDim S8192 ![] bcast_S_S8192 main_c_8
  let main_v25 : IVec S8192 1 := cmpi .sge main_arg1 main_v24
  let main_c_9 : IVec S_ 1 := constantI S_ 1 1#1
  let main_v26 : IVec S_ 1 := (fun x v => Host.reduce IntOp.andi x v reducesTo_S8192_S_d0 h_S_) main_v25 main_c_9
  let main_v27 : IVec S_ 1 := andi main_v23 main_v26
  main_v27

def fn {F : FTy → Type} [FloatOps F] (main_arg0 : FVec F S8192x1024 .f32) (main_arg1 : IVec S8192 32) (main_arg2 : FVec F S16x128x1024 .f32) (main_arg3 : FVec F S16x128 .f32) (main_arg4 : FVec F S16x1024x128 .f32) (main_arg5 : FVec F S16x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S16x128x1024 .f32 := Host.absf main_arg2
  let main_cst_0 : FVec F S_ .f32 := constant S_ .f32 0x7F800000#32
  let main_v5 : FVec F S16x128x1024 .f32 := broadcastInDim S16x128x1024 ![] bcast_S_S16x128x1024 main_cst_0
  let main_v6 : IVec S16x128x1024 1 := cmpf .olt main_v4 main_v5
  let main_c_1 : IVec S_ 1 := constantI S_ 1 1#1
  let main_v7 : IVec S_ 1 := (fun x v => Host.reduce IntOp.andi x v reducesTo_S16x128x1024_S_d0_1_2 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S16x1024x128 .f32 := Host.absf main_arg4
  let main_cst_4 : FVec F S_ .f32 := constant S_ .f32 0x7F800000#32
  let main_v15 : FVec F S16x1024x128 .f32 := broadcastInDim S16x1024x128 ![] bcast_S_S16x1024x128 main_cst_4
  let main_v16 : IVec S16x1024x128 1 := cmpf .olt main_v14 main_v15
  fn_part1 (F := F) main_arg1 main_arg5 main_v13 main_v16
-- ==== Kernel.lean ====
abbrev S8192x1024 : Shape := ⟨2, ![8192, 1024]⟩
abbrev S8192 : Shape := ⟨1, ![8192]⟩
abbrev S16x128x1024 : Shape := ⟨3, ![16, 128, 1024]⟩
abbrev S16x128 : Shape := ⟨2, ![16, 128]⟩
abbrev S16x1024x128 : Shape := ⟨3, ![16, 1024, 128]⟩
abbrev S16x1024 : Shape := ⟨2, ![16, 1024]⟩
abbrev S_ : Shape := ⟨0, ![]⟩
abbrev S8192x1 : Shape := ⟨2, ![8192, 1]⟩
abbrev S2048x1024 : Shape := ⟨2, ![2048, 1024]⟩
abbrev S1024x2048 : Shape := ⟨2, ![1024, 2048]⟩
abbrev S1x2048 : Shape := ⟨2, ![1, 2048]⟩
abbrev S512x1024 : Shape := ⟨2, ![512, 1024]⟩
abbrev S512x1 : Shape := ⟨2, ![512, 1]⟩
abbrev S512x2048 : Shape := ⟨2, ![512, 2048]⟩
abbrev S512x16 : Shape := ⟨2, ![512, 16]⟩
abbrev S512 : Shape := ⟨1, ![512]⟩

abbrev nBuf : Space → Nat
  | .hbm => 28
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S16x128x1024, .f32⟩
  | .hbm, ⟨3, _⟩ => ⟨S16x128, .f32⟩
  | .hbm, ⟨4, _⟩ => ⟨S16x1024x128, .f32⟩
  | .hbm, ⟨5, _⟩ => ⟨S16x1024, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S2048x1024, .f32⟩
  | .hbm, ⟨16, _⟩ => ⟨S1024x2048, .f32⟩
  | .hbm, ⟨17, _⟩ => ⟨S1024x2048, .bf16⟩
  | .hbm, ⟨18, _⟩ => ⟨S16x128x1024, .f32⟩
  | .hbm, ⟨19, _⟩ => ⟨S2048x1024, .f32⟩
  | .hbm, ⟨20, _⟩ => ⟨S2048x1024, .bf16⟩
  | .hbm, ⟨21, _⟩ => ⟨S1x2048, .f32⟩
  | .hbm, ⟨22, _⟩ => ⟨S8192x1024, .f32⟩
  | .hbm, ⟨23, _⟩ => ⟨S8192x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1024x2048, .bf16⟩
  | .local _ .vmem, ⟨5, _⟩ => ⟨S1x2048, .f32⟩
  | .local _ .vmem, ⟨6, _⟩ => ⟨S2048x1024, .bf16⟩
  | .local _ .vmem, ⟨7, _⟩ => ⟨S16x1024, .f32⟩
  | .local _ .vmem, ⟨8, _⟩ => ⟨S512x1024, .f32⟩
  | .local _ .vmem, ⟨9, _⟩ => ⟨S512x1024, .f32⟩
  | .local _ .vmem, ⟨10, _⟩ => ⟨S512x1, .f32⟩
  | .local _ .vmem, ⟨11, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S8192 : S_.BroadcastsInDim S8192 (![] : Fin 0 → Fin S8192.rank)
  shapeCasts_S8192_S8192x1 : S8192.ShapeCasts S8192x1
  shapeCasts_S16x128x1024_S2048x1024 : S16x128x1024.ShapeCasts S2048x1024
  transposes_S2048x1024_S1024x2048_1_0 : S2048x1024.Transposes [1, 0] S1024x2048
  bitsLt_bf16_f32 : FTy.bits .bf16 < FTy.bits .f32
  transposes_S16x1024x128_S16x128x1024_0_2_1 : S16x1024x128.Transposes [0, 2, 1] S16x128x1024
  shapeCasts_S16x128_S1x2048 : S16x128.ShapeCasts S1x2048
  inb_S512x1024_S512x1024_0_0 : ∀ a, (![0, 0] : Fin 2 → Nat) a + S512x1024.size a ≤ S512x1024.size a
  h_S512x1024 : 0 < S512x1024.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S16x1024_S16x1024_0_0 : ∀ a, (![0, 0] : Fin 2 → Nat) a + S16x1024.size a ≤ S16x1024.size a
  h_S16x1024 : 0 < S16x1024.numel
  broadcasts_S1x2048_S512x2048 : S1x2048.Broadcasts S512x2048
  iota_S512x2048_d1_w32 : S512x2048.Iotas .tc 32 [1]
  broadcasts_S512x1_S512x2048 : S512x1.Broadcasts S512x2048
  iota_S512x16_d1_w32 : S512x16.Iotas .tc 32 [1]
  broadcasts_S512x1_S512x16 : S512x1.Broadcasts S512x16
  natLt_1_32 : 1 < 32
  reduces_S512x1024_S512 : S512x1024.Reduces [1] S512
  shapeCasts_S512_S512x1 : S512.ShapeCasts S512x1
  broadcasts_S512x1_S512x1024 : S512x1.Broadcasts S512x1024
  reducesTo_S8192x1_S_d0_1 : S8192x1.ReducesTo [0, 1] S_
  h_S_ : 0 < S_.numel
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  dot_S512x16_S16x1024_S512x1024_1_0_0_1_n_n_wf : DotDims.WF S512x16 S16x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .bf16 = 32 ∨ (Rect.block (s := S2048x1024) S2048x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1024.size a ≤ S16x1024.size a
  hwx0_5 : ∀ i : grid0.Coords, EltTy.bits .f32 = 32 ∨ (Rect.block (s := S16x1024) S16x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .f32 = 32 ∨ (Rect.block (s := S8192x1024) S512x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S8192x1.size a
  hwx0_7 : ∀ i : grid0.Coords, EltTy.bits .f32 = 32 ∨ (Rect.block (s := S8192x1) S512x1.size (cc0_transform_7 i) (hinb0_7 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x16_S16x1024_S512x1024_1_0_0_1_n_n : DotDims S512x16 S16x1024 S512x1024 where
  lhsContracting := [1]
  rhsContracting := [0]
  lhsNonContracting := [0]
  rhsNonContracting := [1]
  lhsBatch := []
  rhsBatch := []
  wf := dot_S512x16_S16x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192 : Shape := ⟨1, ![8192]⟩
abbrev S16x128x1024 : Shape := ⟨3, ![16, 128, 1024]⟩
abbrev S16x128 : Shape := ⟨2, ![16, 128]⟩
abbrev S16x1024x128 : Shape := ⟨3, ![16, 1024, 128]⟩
abbrev S16x1024 : Shape := ⟨2, ![16, 1024]⟩
abbrev S16x128x8192 : Shape := ⟨3, ![16, 128, 8192]⟩
abbrev S16x8192x128 : Shape := ⟨3, ![16, 8192, 128]⟩
abbrev S16x1x128 : Shape := ⟨3, ![16, 1, 128]⟩
abbrev S16x8192x1024 : Shape := ⟨3, ![16, 8192, 1024]⟩
abbrev S16x1x1024 : Shape := ⟨3, ![16, 1, 1024]⟩
abbrev S_ : Shape := ⟨0, ![]⟩
abbrev S8192x1 : Shape := ⟨2, ![8192, 1]⟩
abbrev S8192x2 : Shape := ⟨2, ![8192, 2]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S16x128x1024, .f32⟩
  | .hbm, ⟨3, _⟩ => ⟨S16x128, .f32⟩
  | .hbm, ⟨4, _⟩ => ⟨S16x1024x128, .f32⟩
  | .hbm, ⟨5, _⟩ => ⟨S16x1024, .f32⟩
  | .hbm, ⟨6, _⟩ => ⟨S16x128x8192, .f32⟩
  | .hbm, ⟨7, _⟩ => ⟨S16x8192x128, .f32⟩
  | .hbm, ⟨8, _⟩ => ⟨S16x1x128, .f32⟩
  | .hbm, ⟨9, _⟩ => ⟨S16x8192x128, .f32⟩
  | .hbm, ⟨10, _⟩ => ⟨S16x8192x128, .f32⟩
  | .hbm, ⟨11, _⟩ => ⟨S16x8192x1024, .f32⟩
  | .hbm, ⟨12, _⟩ => ⟨S16x1x1024, .f32⟩
  | .hbm, ⟨13, _⟩ => ⟨S16x8192x1024, .f32⟩
  | .hbm, ⟨14, _⟩ => ⟨S16x8192x1024, .f32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S_, .i32⟩
  | .hbm, ⟨27, _⟩ => ⟨S8192, .i32⟩
  | .hbm, ⟨28, _⟩ => ⟨S8192, .i32⟩
  | .hbm, ⟨29, _⟩ => ⟨S8192, .i32⟩
  | .hbm, ⟨30, _⟩ => ⟨S8192x1, .i32⟩
  | .hbm, ⟨31, _⟩ => ⟨S8192x1, .i32⟩
  | .hbm, ⟨32, _⟩ => ⟨S8192x2, .i32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_cst : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_v0 : Ref sig .tc := ⟨.hbm, 44, rfl⟩
abbrev main_call1_cst : Ref sig .tc := ⟨.hbm, 45, rfl⟩
abbrev main_call1_v1 : Ref sig .tc := ⟨.hbm, 46, rfl⟩
abbrev main_v29 : Ref sig .tc := ⟨.hbm, 47, rfl⟩
abbrev main_cst_3 : Ref sig .tc := ⟨.hbm, 48, rfl⟩

abbrev nD : Nat := 1
abbrev τ : Topo := Topo.v7x

variable {F : FTy → Type} [FloatOps F]

class Facts₀ : Prop where
  transposes_S16x128x8192_S16x8192x128_0_2_1 : S16x128x8192.Transposes [0, 2, 1] S16x8192x128
  bcast_S16x128_S16x1x128_0_2 : S16x128.BroadcastsInDim S16x1x128 (![0, 2] : Fin 2 → Fin S16x1x128.rank)
  bcast_S16x1x128_S16x8192x128_0_1_2 : S16x1x128.BroadcastsInDim S16x8192x128 (![0, 1, 2] : Fin 3 → Fin S16x8192x128.rank)
  bcast_S16x1024_S16x1x1024_0_2 : S16x1024.BroadcastsInDim S16x1x1024 (![0, 2] : Fin 2 → Fin S16x1x1024.rank)
  bcast_S16x1x1024_S16x8192x1024_0_1_2 : S16x1x1024.BroadcastsInDim S16x8192x1024 (![0, 1, 2] : Fin 3 → Fin S16x8192x1024.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x1024_S8192_d1 : S8192x1024.ReducesTo [1] S8192
  h_S_ : 0 < S_.numel
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  reducesTo_S8192x1024_S_d0_1 : S8192x1024.ReducesTo [0, 1] S_
  dot_S16x128x1024_S8192x1024_S16x128x8192_2_1_01_0_n_n_wf : DotDims.WF S16x128x1024 S8192x1024 S16x128x8192 [2] [1] [0, 1] [0] [] []
  dot_S16x8192x128_S16x1024x128_S16x8192x1024_2_2_1_1_0_0_wf : DotDims.WF S16x8192x128 S16x1024x128 S16x8192x1024 [2] [2] [1] [1] [0] [0]
  gather_S16x8192x1024_S8192x2_S8192x1024_1_01_n_n_01_1_111024_wf : GatherDims.WF S16x8192x1024 S8192x2 S8192x1024 [1] [0, 1] [] [0, 1] [] 1 ![1, 1, 1024]

variable [Facts₀]

def dot_S16x128x1024_S8192x1024_S16x128x8192_2_1_01_0_n_n : DotDims S16x128x1024 S8192x1024 S16x128x8192 where
  lhsContracting := [2]
  rhsContracting := [1]
  lhsNonContracting := [0, 1]
  rhsNonContracting := [0]
  lhsBatch := []
  rhsBatch := []
  wf := dot_S16x128x1024_S8192x1024_S16x128x8192_2_1_01_0_n_n_wf
def dot_S16x8192x128_S16x1024x128_S16x8192x1024_2_2_1_1_0_0 : DotDims S16x8192x128 S16x1024x128 S16x8192x1024 where
  lhsContracting := [2]
  rhsContracting := [2]
  lhsNonContracting := [1]
  rhsNonContracting := [1]
  lhsBatch := [0]
  rhsBatch := [0]
  wf := dot_S16x8192x128_S16x1024x128_S16x8192x1024_2_2_1_1_0_0_wf
def gather_S16x8192x1024_S8192x2_S8192x1024_1_01_n_n_01_1_111024 : GatherDims S16x8192x1024 S8192x2 S8192x1024 where
  offsetDims := [1]
  collapsedSliceDims := [0, 1]
  operandBatchingDims := []
  startIndicesBatchingDims := []
  startIndexMap := [0, 1]
  indexVectorDim := 1
  sliceSizes := ![1, 1, 1024]
  wf := gather_S16x8192x1024_S8192x2_S8192x1024_1_01_n_n_01_1_111024_wf

class Facts : Prop extends Facts₀ where

variable [Facts]
-- ==== Proof.Spec.lean ====
/-
  The mathematics both programs compute, over plain coordinates.

  Every sample `b` carries a condition word; read as a signed integer and clamped to `[0, 15]` it selects
  one of sixteen two-layer affine maps: `hidden k b h = Σ_e x b e · W1 k h e + b1 k h`, then
  `mlp k b d = Σ_h hidden k b h · W2 k d h + b2 k d`. The selected row is divided by its Euclidean norm plus a
  small constant, and beside it stands the Euclidean norm of the whole of `x`.

  The second half states ONE ROW in the packed arrangement: the sixteen maps laid side by side along a
  `2048 = 16 · 128` axis, the columns of the other conditions masked to zero, and the second bias recovered by a
  one-hot sum over the sixteen conditions.
-/
import Idealize.ShloMosaic.PureOps.Ideal
import Idealize.ShloMosaic.PureOps.Ideal.Laws
import Idealize.ShloMosaic.Lib.ValueIdx

noncomputable section

namespace Cert.CondMlp

open Idealize.ShloMosaic

/-- The small constant added to a row's norm: the binary32 word both programs carry. -/
abbrev eps : EReal := Ideal.ofBits .f32 0x2EDBE6FF#32

/-- The condition a word selects: the word as a signed integer, clamped to `[0, 15]`. -/
def cond (w : BitVec 32) : Fin 16 := ⟨(min (max w.toInt 0) 15).toNat, by omega⟩

section Routed

variable (x : Fin 8192 → Fin 1024 → EReal) (cw : Fin 8192 → BitVec 32)
  (W1 : Fin 16 → Fin 128 → Fin 1024 → EReal) (b1 : Fin 16 → Fin 128 → EReal)
  (W2 : Fin 16 → Fin 1024 → Fin 128 → EReal) (b2 : Fin 16 → Fin 1024 → EReal)

/-- First layer of condition `k` on sample `b`. -/
def hidden (k : Fin 16) (b : Fin 8192) (h : Fin 128) : EReal := (∑ e : Fin 1024, x b e * W1 k h e) + b1 k h

/-- Both layers of condition `k` on sample `b`. -/
def mlp (k : Fin 16) (b : Fin 8192) (d : Fin 1024) : EReal :=
  (∑ h : Fin 128, hidden x W1 b1 k b h * W2 k d h) + b2 k d

/-- Sample `b` through the map its own condition word selects. -/
def routed (b : Fin 8192) (d : Fin 1024) : EReal := mlp x W1 b1 W2 b2 (cond (cw b)) b d

/-- A routed row's Euclidean norm, plus the small constant. -/
def rowNorm (b : Fin 8192) : EReal :=
  Ideal.sqrt (∑ d : Fin 1024, routed x cw W1 b1 W2 b2 b d * routed x cw W1 b1 W2 b2 b d) + eps

/-- The routed row, normalised. -/
def result (b : Fin 8192) (d : Fin 1024) : EReal :=
  routed x cw W1 b1 W2 b2 b d * (rowNorm x cw W1 b1 W2 b2 b)⁻¹

/-- The Euclidean norm of all of `x`. -/
def embedNorm : EReal := Ideal.sqrt (∑ b : Fin 8192, ∑ d : Fin 1024, x b d * x b d)

end Routed

section Packed

variable (xr : Fin 1024 → EReal) (w : BitVec 32) (A : Fin 1024 → Fin 2048 → EReal) (β : Fin 2048 → EReal)
  (B : Fin 2048 → Fin 1024 → EReal) (γ : Fin 16 → Fin 1024 → EReal)

/-- One row before normalising, packed: column `j` of the wide first layer belongs to condition `j / 128` and
    survives only when the row's word is that condition's; the second bias is picked by a one-hot sum. -/
def packedRow (d : Fin 1024) : EReal :=
  (∑ j : Fin 2048, (if w = BitVec.ofNat 32 (j.val / 128) then (∑ e : Fin 1024, xr e * A e j) + β j else 0) * B j d)
    + ∑ k : Fin 16, (if w = BitVec.ofNat 32 k.val then (1 : EReal) else 0) * γ k d

/-- Its norm plus the small constant. -/
def packedNorm : EReal := Ideal.sqrt (∑ d : Fin 1024, packedRow xr w A β B γ d * packedRow xr w A β B γ d) + eps

/-- The packed row times the reciprocal of its norm. -/
def packedResult (d : Fin 1024) : EReal := packedRow xr w A β B γ d * Ideal.div 1 (packedNorm xr w A β B γ)

end Packed

/-! ## Arrays over literal shapes, read by coordinates -/

open Idealize.ShloMosaic.ValueIdx

/-- A rank-1 array by its coordinate. -/
abbrev cur1 {n0 : Nat} {α : Type} (a : (⟨1, ![n0]⟩ : Shape).Idx → α) : Fin n0 → α := fun i => a (ix1 i)
/-- A rank-2 array by its two coordinates. -/
abbrev cur2 {n0 n1 : Nat} {α : Type} (a : (⟨2, ![n0, n1]⟩ : Shape).Idx → α) : Fin n0 → Fin n1 → α := fun i j => a (ix2 i j)
/-- A rank-3 array by its three coordinates. -/
abbrev cur3 {n0 n1 n2 : Nat} {α : Type} (a : (⟨3, ![n0, n1, n2]⟩ : Shape).Idx → α) : Fin n0 → Fin n1 → Fin n2 → α :=
  fun i j k => a (ix3 i j k)

/-- Column `j` of the packed `2048`-axis belongs to condition `j / 128` … -/
def colCond (j : Fin 2048) : Fin 16 := ⟨j.val / 128, by omega⟩
/-- … and is hidden unit `j % 128` of it. -/
def colUnit (j : Fin 2048) : Fin 128 := ⟨j.val % 128, by omega⟩

/-- The normalised routed rows as one array of the six argument arrays. -/
def resultArr (x0 : (⟨2, ![8192, 1024]⟩ : Shape).Idx → EReal) (x1 : (⟨1, ![8192]⟩ : Shape).Idx → BitVec 32)
    (x2 : (⟨3, ![16, 128, 1024]⟩ : Shape).Idx → EReal) (x3 : (⟨2, ![16, 128]⟩ : Shape).Idx → EReal)
    (x4 : (⟨3, ![16, 1024, 128]⟩ : Shape).Idx → EReal) (x5 : (⟨2, ![16, 1024]⟩ : Shape).Idx → EReal) :
    (⟨2, ![8192, 1024]⟩ : Shape).Idx → EReal :=
  fun i => result (cur2 x0) (cur1 x1) (cur3 x2) (cur2 x3) (cur3 x4) (cur2 x5) (i 0) (i 1)

/-- The norm of all of `x` as a rank-0 array. -/
def embedArr (x0 : (⟨2, ![8192, 1024]⟩ : Shape).Idx → EReal) : (⟨0, ![]⟩ : Shape).Idx → EReal :=
  fun _ => embedNorm (cur2 x0)

end Cert.CondMlp

end
-- ==== Proof.Payload.lean ====
/-
  What the kernel body stores, entry by entry: row `r` of a block of 512 rows is the packed row of that row's
  512-th of `x`, its condition word, and the four weight arrays the body loads whole; beside it the row's sum of
  squares of `x`.
-/
import proofs.«425657_j16071767622094_3_alg».proof.Proof.Gen.KernelIdeal.Skeleton
import proofs.«425657_j16071767622094_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.CondMlp

/-! ## Layout operations at coordinates -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a `[512, 1024]` array along its second axis, read at row `r`: the sum over the row's entries. -/
private theorem rowSum_apply (v : FVec Ideal S512x1024 .f32) (r : Fin 512) :
    multiReduction (F := Ideal) .add [1] S512 v 0x00000000#32 reduces_S512x1024_S512 (.inl rfl) rfl (ix1 r)
      = ∑ d : Fin 1024, v (ix2 r d) := by
  refine (Ideal.multiReduction_add_single v _ reduces_S512x1024_S512 (.inl rfl) rfl (ix1 r)).trans ?_
  refine Finset.sum_congr rfl fun d _ => congrArg v ?_
  funext a
  match a with
  | ⟨0, _⟩ => rfl
  | ⟨1, _⟩ => rfl

/-! ## Pointwise operations read at an index -/

/-- An integer comparison at an index compares the elements. -/
private theorem cmpi_apply {s : Shape} {w : Nat} (p : CmpIPredicate) (x y : IVec s w) (i : s.Idx) :
    cmpi p x y i = IntOp.cmpi p (x i) (y i) := rfl
/-- An arithmetic shift right at an index shifts the element. -/
private theorem shrsi_apply {s : Shape} {w : Nat} (x y : IVec s w) (i : s.Idx) :
    shrsi x y i = IntOp.shrsi .vector (x i) (y i) := rfl
/-- A square root at an index is the element's. -/
private theorem sqrt_apply {s : Shape} {φ : FTy} (v : FVec Ideal s φ) (i : s.Idx) : sqrt v i = Ideal.sqrt (v i) := rfl

/-! ## Words -/

/-- An arithmetic shift right by seven of a column number below 2048 is the column number divided by 128. -/
private theorem shr7 : ∀ j : Fin 2048, IntOp.shrsi .vector (BitVec.ofNat 32 j.val) 7#32 = BitVec.ofNat 32 (j.val / 128) := by
  decide +kernel

/-- A select on the equality bit of two words is the `if` on their equation. -/
private theorem select_cmpi_eq {α : Type} (a b : BitVec 32) (x y : α) :
    Scalar.select (IntOp.cmpi .eq a b) x y = if a = b then x else y := by
  by_cases h : a = b
  · rw [if_pos h]; subst h; simp [Scalar.select, IntOp.cmpi]
  · have hb : (a == b) = false := by simpa using h
    rw [if_neg h]; simp [Scalar.select, IntOp.cmpi, hb]

/-- The equality bit of two words, widened to 32 bits and read as a signed integer, is one or zero. -/
private theorem onehot_bit (a b : BitVec 32) :
    FloatOps.sitofp (F := Ideal) .f32 ((IntOp.cmpi .eq a b).setWidth 32) = if a = b then (1 : EReal) else 0 := by
  by_cases h : a = b
  · have h1 : (1#32 : BitVec 32).toInt = 1 := by decide
    rw [if_pos h]; subst h
    simp only [IntOp.cmpi, beq_self_eq_true, BitVec.ofBool_true]
    show (((BitVec.setWidth 32 1#1).toInt : ℝ) : EReal) = 1
    rw [show BitVec.setWidth 32 1#1 = 1#32 by decide, h1]; simp
  · have hb : (a == b) = false := by simpa using h
    have h0 : (0#32 : BitVec 32).toInt = 0 := by decide
    rw [if_neg h]
    simp only [IntOp.cmpi, hb, BitVec.ofBool_false]
    show (((BitVec.setWidth 32 0#1).toInt : ℝ) : EReal) = 0
    rw [show BitVec.setWidth 32 0#1 = 0#32 by decide, h0]; simp

/-- The binary32 word of one denotes one. -/
private theorem ofBits_one_f32 : Ideal.ofBits .f32 0x3F800000#32 = 1 := IdealRules.sign_bit.ideal_onePat .f32

/-! ## The three products, each read at an entry -/

/-! ### `[512, 1024] × [1024, 2048]`: the wide first layer -/

/-- The left operand's index of this product keeps the output's row … -/
private theorem lhs_first_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
/-- … and carries the contraction coordinate on its second axis; -/
private theorem lhs_first_1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
/-- the right operand's index carries the contraction coordinate on its first axis … -/
private theorem rhs_first_0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
/-- … and keeps the output's column. -/
private theorem rhs_first_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl
/-- Entry `(r, c)` of the product into the zero accumulator: `∑ k, l (r, k) · w (k, c)`. -/
private theorem first_apply (l : FVec Ideal S512x1024 .bf16) (w : FVec Ideal S1024x2048 .bf16) (r : Fin 512) (c : Fin 2048) :
    matmul dot_S512x1024_S1024x2048_S512x2048_1_0_0_1_n_n none l w (constant (F := Ideal) S512x2048 .f32 0x00000000#32) (ix2 r c)
      = ∑ k : Fin 1024, l (ix2 r k) * w (ix2 k c) := by
  simp only [matmul]
  rw [Ideal.matmul_constant_zero_apply, ← Equiv.sum_comp (ValueIdx.contrEquiv1 dot_S512x1024_S1024x2048_S512x2048_1_0_0_1_n_n 1024 rfl rfl).symm]
  refine Finset.sum_congr rfl fun k _ => ?_
  have hk := ValueIdx.contrEquiv1_symm_val dot_S512x1024_S1024x2048_S512x2048_1_0_0_1_n_n 1024 rfl rfl k
  have el : dot_S512x1024_S1024x2048_S512x2048_1_0_0_1_n_n.lhsIdx (ix2 r c) ((ValueIdx.contrEquiv1 dot_S512x1024_S1024x2048_S512x2048_1_0_0_1_n_n 1024 rfl rfl).symm k) = ix2 r k := funext fun a => Fin.ext (by
    match a with
    | ⟨0, _⟩ => exact lhs_first_0 _ _
    | ⟨1, _⟩ => exact (lhs_first_1 _ _).trans hk)
  have er : dot_S512x1024_S1024x2048_S512x2048_1_0_0_1_n_n.rhsIdx (ix2 r c) ((ValueIdx.contrEquiv1 dot_S512x1024_S1024x2048_S512x2048_1_0_0_1_n_n 1024 rfl rfl).symm k) = ix2 k c := funext fun a => Fin.ext (by
    match a with
    | ⟨0, _⟩ => exact (rhs_first_0 _ _).trans hk
    | ⟨1, _⟩ => exact rhs_first_1 _ _)
  rw [el, er]

/-! ### `[512, 2048] × [2048, 1024]`: the second layer over the packed axis -/

/-- The left operand's index of this product keeps the output's row … -/
private theorem lhs_second_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
/-- … and carries the contraction coordinate on its second axis; -/
private theorem lhs_second_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
/-- the right operand's index carries the contraction coordinate on its first axis … -/
private theorem rhs_second_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
/-- … and keeps the output's column. -/
private theorem rhs_second_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl
/-- Entry `(r, c)` of the product into the zero accumulator: `∑ k, l (r, k) · w (k, c)`. -/
private theorem second_apply (l : FVec Ideal S512x2048 .bf16) (w : FVec Ideal S2048x1024 .bf16) (r : Fin 512) (c : Fin 1024) :
    matmul dot_S512x2048_S2048x1024_S512x1024_1_0_0_1_n_n none l w (constant (F := Ideal) S512x1024 .f32 0x00000000#32) (ix2 r c)
      = ∑ k : Fin 2048, l (ix2 r k) * w (ix2 k c) := by
  simp only [matmul]
  rw [Ideal.matmul_constant_zero_apply, ← Equiv.sum_comp (ValueIdx.contrEquiv1 dot_S512x2048_S2048x1024_S512x1024_1_0_0_1_n_n 2048 rfl rfl).symm]
  refine Finset.sum_congr rfl fun k _ => ?_
  have hk := ValueIdx.contrEquiv1_symm_val dot_S512x2048_S2048x1024_S512x1024_1_0_0_1_n_n 2048 rfl rfl k
  have el : dot_S512x2048_S2048x1024_S512x1024_1_0_0_1_n_n.lhsIdx (ix2 r c) ((ValueIdx.contrEquiv1 dot_S512x2048_S2048x1024_S512x1024_1_0_0_1_n_n 2048 rfl rfl).symm k) = ix2 r k := funext fun a => Fin.ext (by
    match a with
    | ⟨0, _⟩ => exact lhs_second_0 _ _
    | ⟨1, _⟩ => exact (lhs_second_1 _ _).trans hk)
  have er : dot_S512x2048_S2048x1024_S512x1024_1_0_0_1_n_n.rhsIdx (ix2 r c) ((ValueIdx.contrEquiv1 dot_S512x2048_S2048x1024_S512x1024_1_0_0_1_n_n 2048 rfl rfl).symm k) = ix2 k c := funext fun a => Fin.ext (by
    match a with
    | ⟨0, _⟩ => exact (rhs_second_0 _ _).trans hk
    | ⟨1, _⟩ => exact rhs_second_1 _ _)
  rw [el, er]

/-! ### `[512, 16] × [16, 1024]`: the one-hot pick of the second bias -/

/-- The left operand's index of this product keeps the output's row … -/
private theorem lhs_third_0 (i : S512x1024.Idx) (q : dot_S512x16_S16x1024_S512x1024_1_0_0_1_n_n.contr.Idx) :
    (dot_S512x16_S16x1024_S512x1024_1_0_0_1_n_n.lhsIdx i q 0).val = (i 0).val := by
  unfold DotDims.lhsIdx
  rw [dif_neg (show ¬(0 : Fin S512x16.rank) ∈ dot_S512x16_S16x1024_S512x1024_1_0_0_1_n_n.lhsBatch by decide), dif_pos (show (0 : Fin S512x16.rank) ∈ dot_S512x16_S16x1024_S512x1024_1_0_0_1_n_n.lhsNonContracting by decide)]
  rfl
/-- … and carries the contraction coordinate on its second axis; -/
private theorem lhs_third_1 (i : S512x1024.Idx) (q : dot_S512x16_S16x1024_S512x1024_1_0_0_1_n_n.contr.Idx) :
    (dot_S512x16_S16x1024_S512x1024_1_0_0_1_n_n.lhsIdx i q 1).val = (q ⟨0, by decide⟩).val :=
  dot_S512x16_S16x1024_S512x1024_1_0_0_1_n_n.lhsIdx_val_of_single rfl i q
/-- the right operand's index carries the contraction coordinate on its first axis … -/
private theorem rhs_third_0 (i : S512x1024.Idx) (q : dot_S512x16_S16x1024_S512x1024_1_0_0_1_n_n.contr.Idx) :
    (dot_S512x16_S16x1024_S512x1024_1_0_0_1_n_n.rhsIdx i q 0).val = (q ⟨0, by decide⟩).val :=
  dot_S512x16_S16x1024_S512x1024_1_0_0_1_n_n.rhsIdx_val_of_single rfl i q
/-- … and keeps the output's column. -/
private theorem rhs_third_1 (i : S512x1024.Idx) (q : dot_S512x16_S16x1024_S512x1024_1_0_0_1_n_n.contr.Idx) :
    (dot_S512x16_S16x1024_S512x1024_1_0_0_1_n_n.rhsIdx i q 1).val = (i 1).val := by
  unfold DotDims.rhsIdx
  rw [dif_neg (show ¬(1 : Fin S16x1024.rank) ∈ dot_S512x16_S16x1024_S512x1024_1_0_0_1_n_n.rhsBatch by decide), dif_pos (show (1 : Fin S16x1024.rank) ∈ dot_S512x16_S16x1024_S512x1024_1_0_0_1_n_n.rhsNonContracting by decide)]
  rfl
/-- Entry `(r, c)` of the product into the zero accumulator: `∑ k, l (r, k) · w (k, c)`. -/
private theorem third_apply (l : FVec Ideal S512x16 .f32) (w : FVec Ideal S16x1024 .f32) (r : Fin 512) (c : Fin 1024) :
    matmul dot_S512x16_S16x1024_S512x1024_1_0_0_1_n_n (some .fp32) l w (constant (F := Ideal) S512x1024 .f32 0x00000000#32) (ix2 r c)
      = ∑ k : Fin 16, l (ix2 r k) * w (ix2 k c) := by
  simp only [matmul]
  rw [Ideal.matmul_constant_zero_apply, ← Equiv.sum_comp (ValueIdx.contrEquiv1 dot_S512x16_S16x1024_S512x1024_1_0_0_1_n_n 16 rfl rfl).symm]
  refine Finset.sum_congr rfl fun k _ => ?_
  have hk := ValueIdx.contrEquiv1_symm_val dot_S512x16_S16x1024_S512x1024_1_0_0_1_n_n 16 rfl rfl k
  have el : dot_S512x16_S16x1024_S512x1024_1_0_0_1_n_n.lhsIdx (ix2 r c) ((ValueIdx.contrEquiv1 dot_S512x16_S16x1024_S512x1024_1_0_0_1_n_n 16 rfl rfl).symm k) = ix2 r k := funext fun a => Fin.ext (by
    match a with
    | ⟨0, _⟩ => exact lhs_third_0 _ _
    | ⟨1, _⟩ => exact (lhs_third_1 _ _).trans hk)
  have er : dot_S512x16_S16x1024_S512x1024_1_0_0_1_n_n.rhsIdx (ix2 r c) ((ValueIdx.contrEquiv1 dot_S512x16_S16x1024_S512x1024_1_0_0_1_n_n 16 rfl rfl).symm k) = ix2 k c := funext fun a => Fin.ext (by
    match a with
    | ⟨0, _⟩ => exact (rhs_third_0 _ _).trans hk
    | ⟨1, _⟩ => exact rhs_third_1 _ _)
  rw [el, er]

/-! ## The row before normalising, and the reciprocal of its norm -/

/-- Entry `(r, d)` of the value the body normalises: the packed row of row `r`. Column `j` of the wide first layer
    survives the mask exactly when the row's word is `j / 128`; the third product's left factor at `(r, k)` is one
    exactly when the row's word is `k`. -/
private theorem pay3_apply (x0 : Vec Ideal S512x1024 .f32) (x1 : Vec Ideal S512x1 .i32) (x2 : Vec Ideal S1024x2048 .bf16)
    (x3 : Vec Ideal S1x2048 .f32) (x4 : Vec Ideal S2048x1024 .bf16) (x5 : Vec Ideal S16x1024 .f32)
    (r : Fin 512) (d : Fin 1024) :
    k0_pay3 (F := Ideal) x0 x1 x2 x3 x4 x5 (ix2 r d)
      = packedRow (fun e => x0 (ix2 r e)) (x1 (ix2 r (0 : Fin 1))) (cur2 x2) (fun j => x3 (ix2 (0 : Fin 1) j))
          (cur2 x4) (cur2 x5) d := by
  unfold k0_pay3 packedRow
  simp only [shapeCast_self]
  refine (addf_apply _ _ _).trans (congrArg₂ (· + ·) ?_ ?_)
  · refine (second_apply _ _ r d).trans (Finset.sum_congr rfl fun j _ => ?_)
    refine congrArg (· * x4 (ix2 j d)) ?_
    refine (select_apply _ _ _ (ix2 r j)).trans ?_
    rw [cmpi_apply, shrsi_apply, broadcastTo_a1_ab_apply, iota_single_apply, broadcast_apply, addf_apply,
      first_apply, broadcastTo_1b_ab_apply, broadcast_apply]
    show Scalar.select (IntOp.cmpi .eq (x1 (ix2 r 0)) (IntOp.shrsi .vector (BitVec.ofNat 32 j.val) 7#32)) _
      (Ideal.ofBits .f32 0x00000000#32) = _
    rw [shr7 j, select_cmpi_eq, Ideal.ofBits_zero_f32]
    rfl
  · refine (third_apply _ _ r d).trans (Finset.sum_congr rfl fun k _ => ?_)
    refine congrArg (· * x5 (ix2 k d)) ?_
    refine (sitofp_apply _ (ix2 r k)).trans ?_
    rw [extui_apply, cmpi_apply, broadcastTo_a1_ab_apply, iota_single_apply]
    exact onehot_bit _ _

/-- Entry `(r, d)` of the factor the body multiplies by: one over the norm of row `r`'s packed row plus the small
    constant, the same in every column `d`. -/
private theorem pay4_apply (x0 : Vec Ideal S512x1024 .f32) (x1 : Vec Ideal S512x1 .i32) (x2 : Vec Ideal S1024x2048 .bf16)
    (x3 : Vec Ideal S1x2048 .f32) (x4 : Vec Ideal S2048x1024 .bf16) (x5 : Vec Ideal S16x1024 .f32)
    (r : Fin 512) (d : Fin 1024) :
    k0_pay4 (F := Ideal) x0 x1 x2 x3 x4 x5 (ix2 r d)
      = Ideal.div 1 (packedNorm (fun e => x0 (ix2 r e)) (x1 (ix2 r (0 : Fin 1))) (cur2 x2)
          (fun j => x3 (ix2 (0 : Fin 1) j)) (cur2 x4) (cur2 x5)) := by
  unfold k0_pay4 packedNorm
  refine (broadcastTo_a1_ab_apply _ broadcasts_S512x1_S512x1024 r d).trans ?_
  rw [divf_apply, broadcast_apply, addf_apply, broadcast_apply, sqrt_apply, shapeCast_a_a1_apply, rowSum_apply]
  show Ideal.div (Ideal.ofBits .f32 0x3F800000#32) (Ideal.sqrt _ + Ideal.ofBits .f32 0x2EDBE6FF#32) = _
  rw [ofBits_one_f32]
  refine congrArg (fun t => Ideal.div 1 (Ideal.sqrt t + eps)) (Finset.sum_congr rfl fun e _ => ?_)
  rw [mulf_apply, pay3_apply]

/-! ## What is stored -/

/-- Entry `(r, d)` of the block the body stores: the packed row of row `r`, times the reciprocal of its norm. -/
theorem stored_apply (x0 : Vec Ideal S512x1024 .f32) (x1 : Vec Ideal S512x1 .i32) (x2 : Vec Ideal S1024x2048 .bf16)
    (x3 : Vec Ideal S1x2048 .f32) (x4 : Vec Ideal S2048x1024 .bf16) (x5 : Vec Ideal S16x1024 .f32)
    (r : Fin 512) (d : Fin 1024) :
    k0_pay1 (F := Ideal) (k0_pay3 x0 x1 x2 x3 x4 x5) (k0_pay4 x0 x1 x2 x3 x4 x5) (ix2 r d)
      = packedResult (fun e => x0 (ix2 r e)) (x1 (ix2 r (0 : Fin 1))) (cur2 x2) (fun j => x3 (ix2 (0 : Fin 1) j))
          (cur2 x4) (cur2 x5) d := by
  unfold k0_pay1 packedResult
  rw [mulf_apply, pay3_apply, pay4_apply]

/-- Entry `(r, 0)` of the second block the body stores: the sum of the squares of row `r` of `x`. -/
theorem rowsq_apply (x0 : Vec Ideal S512x1024 .f32) (r : Fin 512) :
    k0_pay2 (F := Ideal) x0 (ix2 r (0 : Fin 1)) = ∑ d : Fin 1024, x0 (ix2 r d) * x0 (ix2 r d) := by
  unfold k0_pay2
  refine (shapeCast_a_a1_apply _ shapeCasts_S512_S512x1 r 0).trans ?_
  exact rowSum_apply (mulf x0 x0) r

end Cert.KernelIdeal.Body

end
-- ==== Proof.LibBlockSum.lean ====
/-
  A sum over the first `N·B` naturals taken block by block, `B` consecutive terms at a time: the bookkeeping
  step between a column sum over all rows of an array and the same sum accumulated over consecutive row blocks
  of equal height. Stated for any additive commutative monoid (so for the extended reals as well), over a summand
  defined on every natural so that no bound proofs enter the statement; the `Fin` forms read the summand at the
  values of the indices.
-/
import Mathlib.Algebra.BigOperators.Fin
import Mathlib.Algebra.BigOperators.Intervals

open scoped BigOperators

namespace Cert.LibBlockSum

variable {β : Type*} [AddCommMonoid β]

/-- The first `(N + 1)·B` terms are the first `N·B` terms and then the `B` terms of block `N`. -/
theorem sum_range_succ_block (g : ℕ → β) (B N : ℕ) :
    ∑ i ∈ Finset.range (B * (N + 1)), g i
      = ∑ i ∈ Finset.range (B * N), g i + ∑ k ∈ Finset.range B, g (B * N + k) := by
  rw [Nat.mul_succ, Finset.sum_range_add]

/-- The first `N·B` terms, block by block: block `s` holds the terms `B·s … B·s + B − 1`. -/
theorem sum_range_blocks (g : ℕ → β) (B : ℕ) :
    ∀ N : ℕ, ∑ i ∈ Finset.range (B * N), g i = ∑ s ∈ Finset.range N, ∑ k ∈ Finset.range B, g (B * s + k)
  | 0 => by simp
  | N + 1 => by rw [sum_range_succ_block, sum_range_blocks g B N, Finset.sum_range_succ]

/-- The same with both index sets as `Fin` types: a sum over `Fin M`, `M = B·N`, is the sum over the `N` blocks
    of the sum over the `B` positions inside a block. -/
theorem sum_fin_blocks (g : ℕ → β) {M B N : ℕ} (h : B * N = M) :
    ∑ r : Fin M, g r.val = ∑ s ∈ Finset.range N, ∑ k : Fin B, g (B * s + k.val) := by
  subst h
  rw [Fin.sum_univ_eq_sum_range (fun i => g i) (B * N), sum_range_blocks]
  exact Finset.sum_congr rfl fun s _ => (Fin.sum_univ_eq_sum_range (fun k => g (B * s + k)) B).symm

/-- The partial form an induction over the blocks uses: the terms below `B·(n + 1)` are those below `B·n` and
    block `n`'s, the block's as a `Fin` sum. -/
theorem sum_range_succ_block_fin (g : ℕ → β) (B n : ℕ) :
    ∑ i ∈ Finset.range (B * (n + 1)), g i = ∑ i ∈ Finset.range (B * n), g i + ∑ k : Fin B, g (B * n + k.val) := by
  rw [sum_range_succ_block, Fin.sum_univ_eq_sum_range (fun k => g (B * n + k)) B]

/-- AN ACCUMULATOR OVER THE BLOCKS. A quantity that is zero plus block 0's sum at step 0 and at each later step adds
    the next block's sum to what it was, is after step `n` the sum of all the terms below the end of block `n`
    (the bound proofs of the steps are threaded, as a recursion over the points of a grid carries them). -/
theorem fold_eq_prefix (g : ℕ → β) (B : ℕ) {N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val)) :
    ∀ (n : ℕ) (h : n < N), s n h = ∑ i ∈ Finset.range (B * (n + 1)), g i
  | 0, h => by
    rw [h0 h, sum_range_succ_block_fin, Nat.mul_zero, Finset.range_zero, Finset.sum_empty]
  | n + 1, h => by
    rw [hs n h, fold_eq_prefix g B s h0 hs n (Nat.lt_of_succ_lt h), ← sum_range_succ_block_fin]

/-- … so after the step whose block ends at `M` it is the whole sum over `Fin M`. -/
theorem fold_eq_total (g : ℕ → β) (B : ℕ) {M N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val))
    (n : ℕ) (h : n < N) (hM : B * (n + 1) = M) : s n h = ∑ r : Fin M, g r.val := by
  subst hM
  rw [fold_eq_prefix g B s h0 hs n h, Fin.sum_univ_eq_sum_range (fun i => g i) (B * (n + 1))]

end Cert.LibBlockSum
-- ==== Proof.Algebra.lean ====
/-
  The packed arrangement of a row is the routed row.
-/
import proofs.«425657_j16071767622094_3_alg».proof.Proof.Spec
import proofs.«425657_j16071767622094_3_alg».proof.Proof.LibBlockSum

noncomputable section

namespace Cert.CondMlp

open Idealize.ShloMosaic

/-! ## Signs: a square, a square root, the small constant -/

/-- A square is not negative on the extended reals, the infinities included: `⊥ · ⊥ = ⊤ · ⊤ = ⊤`. -/
private theorem mul_self_nonneg_ereal (a : EReal) : 0 ≤ a * a := by
  induction a using EReal.rec with
  | bot => simp
  | coe r =>
    rw [← EReal.coe_mul]
    exact_mod_cast mul_self_nonneg r
  | top => simp

/-- The square root of a non-negative extended real is not negative (`√⊤ = ⊤`). -/
private theorem sqrt_nonneg_ereal {a : EReal} (h : 0 ≤ a) : 0 ≤ Ideal.sqrt a := by
  induction a using EReal.rec with
  | bot => simp at h
  | coe r =>
    have hr : 0 ≤ r := by exact_mod_cast h
    rw [Ideal.sqrt_coe, if_neg (not_lt.mpr hr)]
    exact_mod_cast Real.sqrt_nonneg r
  | top => simp

/-- The small constant is the positive real `14411519 · 2⁻⁵⁷`. -/
private theorem eps_pos : (0 : EReal) < eps := by
  simp [eps, Ideal.ofBits, Ideal.ieee]
  have h : (0 : ℝ) < 14411519 * (2 ^ 57)⁻¹ := by positivity
  exact_mod_cast h

/-- The square root of a sum of squares, plus the small constant, is positive. -/
private theorem sqrt_sum_sq_add_eps_pos (f : Fin 1024 → EReal) :
    0 < Ideal.sqrt (∑ d : Fin 1024, f d * f d) + eps :=
  lt_of_lt_of_le eps_pos (le_add_of_nonneg_left
    (sqrt_nonneg_ereal (Finset.sum_nonneg fun d _ => mul_self_nonneg_ereal (f d))))

/-! ## The reciprocal -/

/-- Off zero, one divided by `n` is the inverse of `n`. -/
private theorem div_one_of_ne_zero {n : EReal} (h : n ≠ 0) : Ideal.div 1 n = n⁻¹ := by
  rw [Ideal.div, if_neg h, one_mul]

/-! ## Words of small naturals -/

/-- Two naturals below `2 ^ 32` have the same 32-bit word only when they are equal. -/
private theorem ofNat32_eq_iff {m n : ℕ} (hm : m < 2 ^ 32) (hn : n < 2 ^ 32) :
    BitVec.ofNat 32 m = BitVec.ofNat 32 n ↔ m = n := by
  constructor
  · intro h
    have h' := congrArg BitVec.toNat h
    rw [BitVec.toNat_ofNat, BitVec.toNat_ofNat, Nat.mod_eq_of_lt hm, Nat.mod_eq_of_lt hn] at h'
    exact h'
  · rintro rfl
    rfl

/-! ## The two collapsing sums -/

/-- A one-hot sum over the sixteen conditions picks the term of the condition whose word it carries. -/
private theorem onehot_sum (k : Fin 16) (c : Fin 16 → EReal) :
    ∑ k' : Fin 16, (if BitVec.ofNat 32 k.val = BitVec.ofNat 32 k'.val then (1 : EReal) else 0) * c k' = c k := by
  rw [Finset.sum_eq_single k]
  · rw [if_pos rfl, one_mul]
  · intro k' _ hne
    have hw : ¬ BitVec.ofNat 32 k.val = BitVec.ofNat 32 k'.val := by
      rw [ofNat32_eq_iff (by omega) (by omega)]
      exact fun h => hne (Fin.ext h.symm)
    rw [if_neg hw, zero_mul]
  · intro h
    exact absurd (Finset.mem_univ k) h

/-- A sum over the `2048 = 16 · 128` columns, taken condition by condition. -/
private theorem sum_cols_blocks (F : Fin 2048 → EReal) :
    ∑ j : Fin 2048, F j = ∑ s : Fin 16, ∑ h : Fin 128, F ⟨128 * s.val + h.val, by omega⟩ := by
  have h2 := Cert.LibBlockSum.sum_fin_blocks (fun n : ℕ => if hn : n < 2048 then F ⟨n, hn⟩ else 0)
    (M := 2048) (B := 128) (N := 16) (by norm_num)
  calc ∑ j : Fin 2048, F j
      = ∑ j : Fin 2048, (if hn : j.val < 2048 then F ⟨j.val, hn⟩ else 0) :=
        Finset.sum_congr rfl fun j _ => by rw [dif_pos j.isLt]
    _ = ∑ s ∈ Finset.range 16, ∑ h : Fin 128,
          (if hn : 128 * s + h.val < 2048 then F ⟨128 * s + h.val, hn⟩ else 0) := h2
    _ = ∑ s : Fin 16, ∑ h : Fin 128,
          (if hn : 128 * s.val + h.val < 2048 then F ⟨128 * s.val + h.val, hn⟩ else 0) :=
        (Fin.sum_univ_eq_sum_range (fun s => ∑ h : Fin 128,
          (if hn : 128 * s + h.val < 2048 then F ⟨128 * s + h.val, hn⟩ else 0)) 16).symm
    _ = ∑ s : Fin 16, ∑ h : Fin 128, F ⟨128 * s.val + h.val, by omega⟩ :=
        Finset.sum_congr rfl fun s _ => Finset.sum_congr rfl fun h _ => by
          rw [dif_pos (show 128 * s.val + h.val < 2048 by omega)]

variable (x : Fin 8192 → Fin 1024 → EReal) (cw : Fin 8192 → BitVec 32)
  (W1 : Fin 16 → Fin 128 → Fin 1024 → EReal) (b1 : Fin 16 → Fin 128 → EReal)
  (W2 : Fin 16 → Fin 1024 → Fin 128 → EReal) (b2 : Fin 16 → Fin 1024 → EReal)

/-- A routed row's norm plus the small constant is not zero. -/
theorem rowNorm_ne_zero (b : Fin 8192) : rowNorm x cw W1 b1 W2 b2 b ≠ 0 :=
  (sqrt_sum_sq_add_eps_pos fun d => routed x cw W1 b1 W2 b2 b d).ne'

/-- Dividing a routed entry by its row's norm is multiplying by the reciprocal. -/
theorem div_rowNorm (b : Fin 8192) (d : Fin 1024) :
    Ideal.div (routed x cw W1 b1 W2 b2 b d) (rowNorm x cw W1 b1 W2 b2 b) = result x cw W1 b1 W2 b2 b d := by
  rw [Ideal.div, if_neg (rowNorm_ne_zero x cw W1 b1 W2 b2 b), result]

/-- Column `128 · k + h` belongs to condition `k` … -/
private theorem colCond_block (k : Fin 16) (h : Fin 128) (hlt : 128 * k.val + h.val < 2048) :
    colCond ⟨128 * k.val + h.val, hlt⟩ = k :=
  Fin.ext (by simp only [colCond]; omega)

/-- … and is its hidden unit `h`. -/
private theorem colUnit_block (k : Fin 16) (h : Fin 128) (hlt : 128 * k.val + h.val < 2048) :
    colUnit ⟨128 * k.val + h.val, hlt⟩ = h :=
  Fin.ext (by simp only [colUnit]; omega)

/-- The masked sum over the packed columns keeps the block of the row's own condition: the second layer of
    that condition on its hidden units. -/
private theorem masked_sum (k : Fin 16) (b : Fin 8192) (d : Fin 1024) :
    ∑ j : Fin 2048, (if BitVec.ofNat 32 k.val = BitVec.ofNat 32 (j.val / 128)
        then (∑ e : Fin 1024, x b e * W1 (colCond j) (colUnit j) e) + b1 (colCond j) (colUnit j) else 0)
        * W2 (colCond j) d (colUnit j)
      = ∑ h : Fin 128, hidden x W1 b1 k b h * W2 k d h := by
  rw [sum_cols_blocks, Finset.sum_eq_single k]
  · refine Finset.sum_congr rfl fun h _ => ?_
    have hlt : 128 * k.val + h.val < 2048 := by omega
    have hq : (128 * k.val + h.val) / 128 = k.val := by omega
    simp only [colCond_block k h hlt, colUnit_block k h hlt, hq, if_true, hidden]
  · intro s _ hne
    refine Finset.sum_eq_zero fun h _ => ?_
    have hq : (128 * s.val + h.val) / 128 = s.val := by omega
    have hw : ¬ BitVec.ofNat 32 k.val = BitVec.ofNat 32 s.val := by
      rw [ofNat32_eq_iff (by omega) (by omega)]
      exact fun h => hne (Fin.ext h.symm)
    simp only [hq, if_neg hw, zero_mul]
  · intro h
    exact absurd (Finset.mem_univ k) h

/-- The packed row of sample `b` is its routed row, entry by entry. -/
private theorem packedRow_eq_routed (b : Fin 8192) (d : Fin 1024) :
    packedRow (fun e => x b e) (BitVec.ofNat 32 (cond (cw b)).val)
      (fun e j => W1 (colCond j) (colUnit j) e) (fun j => b1 (colCond j) (colUnit j))
      (fun j d' => W2 (colCond j) d' (colUnit j)) b2 d
    = routed x cw W1 b1 W2 b2 b d := by
  rw [packedRow, routed, mlp, masked_sum x W1 b1 W2 (cond (cw b)) b d, onehot_sum (cond (cw b)) fun k => b2 k d]

/-- So the two norms are one. -/
private theorem packedNorm_eq_rowNorm (b : Fin 8192) :
    packedNorm (fun e => x b e) (BitVec.ofNat 32 (cond (cw b)).val)
      (fun e j => W1 (colCond j) (colUnit j) e) (fun j => b1 (colCond j) (colUnit j))
      (fun j d' => W2 (colCond j) d' (colUnit j)) b2
    = rowNorm x cw W1 b1 W2 b2 b := by
  simp only [packedNorm, rowNorm, packedRow_eq_routed]

/-- The packed row of sample `b`, with the word of its clamped condition and the sixteen maps laid side by side, is
    the normalised routed row. -/
theorem packedResult_eq_result (b : Fin 8192) (d : Fin 1024) :
    packedResult (fun e => x b e) (BitVec.ofNat 32 (cond (cw b)).val)
      (fun e j => W1 (colCond j) (colUnit j) e) (fun j => b1 (colCond j) (colUnit j))
      (fun j d' => W2 (colCond j) d' (colUnit j)) b2 d
    = result x cw W1 b1 W2 b2 b d := by
  rw [packedResult, packedRow_eq_routed, packedNorm_eq_rowNorm,
    div_one_of_ne_zero (rowNorm_ne_zero x cw W1 b1 W2 b2 b), result]

end Cert.CondMlp

end
-- ==== Proof.RowLaw.lean ====
/-
  One stored row, joined to the specification: when the blocks the body loads are known entry by entry in terms of
  the six argument arrays (row `r` of the block is sample `b`; the word column holds the word of `b`'s clamped
  condition; the packed weight arrays hold the sixteen maps side by side), entry `(r, d)` of what the body stores is
  entry `(b, d)` of the normalised routed rows, and the second stored block's entry `(r, 0)` is the sum of squares
  of row `b` of `x`.
-/
import proofs.«425657_j16071767622094_3_alg».proof.Proof.Payload
import proofs.«425657_j16071767622094_3_alg».proof.Proof.Algebra

noncomputable section

namespace Cert.KernelIdeal.Body

open Idealize.ShloMosaic Idealize.ShloMosaic.ValueIdx Cert.KernelIdeal Cert.KernelIdeal.Gen Cert.CondMlp

/-- The sums of squares of the rows of `x`, as a column. -/
def rowSqArr (a0 : (⟨2, ![8192, 1024]⟩ : Shape).Idx → EReal) : (⟨2, ![8192, 1]⟩ : Shape).Idx → EReal :=
  fun i => ∑ d : Fin 1024, cur2 a0 (i 0) d * cur2 a0 (i 0) d

theorem stored_eq_result (X0 : Vec Ideal S512x1024 .f32) (X1 : Vec Ideal S512x1 .i32) (X2 : Vec Ideal S1024x2048 .bf16)
    (X3 : Vec Ideal S1x2048 .f32) (X4 : Vec Ideal S2048x1024 .bf16) (X5 : Vec Ideal S16x1024 .f32)
    (a0 : (⟨2, ![8192, 1024]⟩ : Shape).Idx → EReal) (a1 : (⟨1, ![8192]⟩ : Shape).Idx → BitVec 32)
    (a2 : (⟨3, ![16, 128, 1024]⟩ : Shape).Idx → EReal) (a3 : (⟨2, ![16, 128]⟩ : Shape).Idx → EReal)
    (a4 : (⟨3, ![16, 1024, 128]⟩ : Shape).Idx → EReal) (a5 : (⟨2, ![16, 1024]⟩ : Shape).Idx → EReal)
    (r : Fin 512) (d : Fin 1024) (b : Fin 8192)
    (h0 : ∀ e : Fin 1024, X0 (ix2 r e) = a0 (ix2 b e))
    (h1 : X1 (ix2 r (0 : Fin 1)) = BitVec.ofNat 32 (CondMlp.cond (a1 (ix1 b))).val)
    (h2 : ∀ (e : Fin 1024) (j : Fin 2048), X2 (ix2 e j) = a2 (ix3 (colCond j) (colUnit j) e))
    (h3 : ∀ j : Fin 2048, X3 (ix2 (0 : Fin 1) j) = a3 (ix2 (colCond j) (colUnit j)))
    (h4 : ∀ (j : Fin 2048) (d' : Fin 1024), X4 (ix2 j d') = a4 (ix3 (colCond j) d' (colUnit j)))
    (h5 : ∀ (k : Fin 16) (d' : Fin 1024), X5 (ix2 k d') = a5 (ix2 k d')) :
    k0_pay1 (F := Ideal) (k0_pay3 X0 X1 X2 X3 X4 X5) (k0_pay4 X0 X1 X2 X3 X4 X5) (ix2 r d)
      = resultArr a0 a1 a2 a3 a4 a5 (ix2 b d) := by
  rw [stored_apply X0 X1 X2 X3 X4 X5 r d]
  have e0 : (fun e : Fin 1024 => X0 (ix2 r e)) = fun e => cur2 a0 b e := funext h0
  have e2 : (cur2 X2 : Fin 1024 → Fin 2048 → EReal) = fun e j => cur3 a2 (colCond j) (colUnit j) e :=
    funext fun e => funext fun j => h2 e j
  have e3 : (fun j : Fin 2048 => X3 (ix2 (0 : Fin 1) j)) = fun j => cur2 a3 (colCond j) (colUnit j) := funext h3
  have e4 : (cur2 X4 : Fin 2048 → Fin 1024 → EReal) = fun j d' => cur3 a4 (colCond j) d' (colUnit j) :=
    funext fun j => funext fun d' => h4 j d'
  have e5 : (cur2 X5 : Fin 16 → Fin 1024 → EReal) = cur2 a5 := funext fun k => funext fun d' => h5 k d'
  rw [e0, h1, e2, e3, e4, e5]
  exact packedResult_eq_result (cur2 a0) (cur1 a1) (cur3 a2) (cur2 a3) (cur3 a4) (cur2 a5) b d

theorem rowsq_eq (X0 : Vec Ideal S512x1024 .f32) (a0 : (⟨2, ![8192, 1024]⟩ : Shape).Idx → EReal)
    (r : Fin 512) (b : Fin 8192) (h0 : ∀ e : Fin 1024, X0 (ix2 r e) = a0 (ix2 b e)) :
    k0_pay2 (F := Ideal) X0 (ix2 r (0 : Fin 1)) = rowSqArr a0 (ix2 b (0 : Fin 1)) := by
  rw [rowsq_apply X0 r]
  exact Finset.sum_congr rfl fun d _ => by rw [h0 d]

end Cert.KernelIdeal.Body

end
-- ==== Proof.HostPrefix.lean ====
/-
  What the region finds in the arrays the host lines before it repack, entry by entry:
  the condition words clipped to `[0, 15]` as a column; the first layer's weights with the sixteen conditions
  laid side by side, transposed (`[e, 128·k + h] = W1[k, h, e]`); its bias as one row (`[0, 128·k + h] = b1[k, h]`);
  the second layer's weights stacked (`[128·k + h, d] = W2[k, d, h]`).
-/
import proofs.«425657_j16071767622094_3_alg».proof.Proof.Gen.KernelIdeal.Frame
import proofs.«425657_j16071767622094_3_alg».proof.Proof.Spec
import Idealize.ShloMosaic.PureOps.Ideal
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostPrefix

open Idealize.ShloMosaic Idealize.ShloMosaic.TcCoe Idealize.SL.Sem Idealize.ShloMosaic.ValueIdx
open Idealize.ShloMosaic.StableHlo
open Cert.KernelIdeal Cert.KernelIdeal.Gen Cert.CondMlp

variable (m : (ℓ : Loc nD τ sig) → Buf (Elt Ideal) ℓ)

/-! ## The clip is the clamp -/

/-- Clipping a word to `[0, 15]` as signed integers gives the word of the condition it selects. -/
theorem clip_eq_cond (w : BitVec 32) : IntOp.minsi 15#32 (IntOp.maxsi 0#32 w) = BitVec.ofNat 32 (CondMlp.cond w).val := by
  have h0 : (0#32 : BitVec 32).toInt = 0 := by decide
  have h15 : (15#32 : BitVec 32).toInt = 15 := by decide
  have hmax : IntOp.maxsi 0#32 w = if w.toInt < 0 then 0#32 else w := by
    unfold IntOp.maxsi
    simp only [BitVec.slt, decide_eq_true_eq, h0]
  have hmin : ∀ z : BitVec 32, IntOp.minsi 15#32 z = if 15 < z.toInt then 15#32 else z := by
    intro z
    unfold IntOp.minsi
    simp only [BitVec.slt, decide_eq_true_eq, h15]
  rw [hmax, hmin]
  show _ = BitVec.ofNat 32 (min (max w.toInt 0) 15).toNat
  by_cases hw : w.toInt < 0
  · rw [if_pos hw, if_neg (by rw [h0]; omega)]
    have e : (min (max w.toInt 0) 15).toNat = 0 := by omega
    rw [e]
  · rw [if_neg hw]
    by_cases h2 : (15 : Int) < w.toInt
    · rw [if_pos h2]
      have e : (min (max w.toInt 0) 15).toNat = 15 := by omega
      rw [e]
    · rw [if_neg h2]
      apply BitVec.eq_of_toNat_eq
      rw [BitVec.toNat_ofNat]
      have hc := BitVec.toInt_eq_toNat_cond w
      have hlt := w.isLt
      split_ifs at hc <;> omega

/-! ## The repacked arrays as terms of the arguments -/

theorem V_words (c : Dev nD) : (V m c main_v1 : S8192x1.Idx → BitVec 32)
    = shapeCast S8192x1 (minsi (broadcastInDim S8192 ![] bcast_S_S8192 (constantI S_ 32 15#32))
        (maxsi (broadcastInDim S8192 ![] bcast_S_S8192 (constantI S_ 32 0#32))
          (m ((c.tc : Thread nD τ).loc main_arg1)))) shapeCasts_S8192_S8192x1 := by
  dsimp only [V, V0]
  simp only [hostOps0, hostOps0_1, hostOps0_2, List.flatten_cons, List.flatten_nil, List.append_nil, List.cons_append, List.nil_append]
  after_results
  rfl

theorem V_first (c : Dev nD) : (V m c main_v4 : S1024x2048.Idx → EReal)
    = (truncf (F := Ideal) .bf16 (transpose S1024x2048 [1, 0]
        (shapeCast S2048x1024 (m ((c.tc : Thread nD τ).loc main_arg2) : S16x128x1024.Idx → EReal) shapeCasts_S16x128x1024_S2048x1024)
        transposes_S2048x1024_S1024x2048_1_0) bitsLt_bf16_f32 : S1024x2048.Idx → EReal) := by
  dsimp only [V, V0]
  simp only [hostOps0, hostOps0_1, hostOps0_2, List.flatten_cons, List.flatten_nil, List.append_nil, List.cons_append, List.nil_append]
  after_results
  rfl

theorem V_second (c : Dev nD) : (V m c main_v7 : S2048x1024.Idx → EReal)
    = (truncf (F := Ideal) .bf16 (shapeCast S2048x1024
        (transpose S16x128x1024 [0, 2, 1] (m ((c.tc : Thread nD τ).loc main_arg4) : S16x1024x128.Idx → EReal)
          transposes_S16x1024x128_S16x128x1024_0_2_1) shapeCasts_S16x128x1024_S2048x1024) bitsLt_bf16_f32 : S2048x1024.Idx → EReal) := by
  dsimp only [V, V0]
  simp only [hostOps0, hostOps0_1, hostOps0_2, List.flatten_cons, List.flatten_nil, List.append_nil, List.cons_append, List.nil_append]
  after_results
  rfl

theorem V_bias (c : Dev nD) : (V m c main_v8 : S1x2048.Idx → EReal)
    = shapeCast S1x2048 (m ((c.tc : Thread nD τ).loc main_arg3) : S16x128.Idx → EReal) shapeCasts_S16x128_S1x2048 := by
  dsimp only [V, V0]
  simp only [hostOps0, hostOps0_1, hostOps0_2, List.flatten_cons, List.flatten_nil, List.append_nil, List.cons_append, List.nil_append]
  after_results
  rfl

/-! ## … read at an index -/

/-- Row `b` of the word column is the word of sample `b`'s condition. -/
theorem words_apply (c : Dev nD) (b : Fin 8192) :
    (V m c main_v1 : S8192x1.Idx → BitVec 32) (ix2 b (0 : Fin 1))
      = BitVec.ofNat 32 (CondMlp.cond ((m ((c.tc : Thread nD τ).loc main_arg1) : S8192.Idx → BitVec 32) (ix1 b))).val := by
  rw [V_words]
  refine (shapeCast_apply _ shapeCasts_S8192_S8192x1 (ix2 b (0 : Fin 1)) (ix1 b) ?_).trans ?_
  · rw [Shape.rowMajor_val_one, Shape.rowMajor_val_two]
    show b.val = b.val * 1 + 0
    omega
  · exact clip_eq_cond _

/-- `[e, j]` of the packed first layer is `W1[j / 128, j % 128, e]`. -/
theorem first_apply (c : Dev nD) (e : Fin 1024) (j : Fin 2048) :
    (V m c main_v4 : S1024x2048.Idx → EReal) (ix2 e j)
      = (m ((c.tc : Thread nD τ).loc main_arg2) : S16x128x1024.Idx → EReal) (ix3 (colCond j) (colUnit j) e) := by
  rw [V_first, truncf_apply, transpose_ix2_apply]
  refine shapeCast_apply _ shapeCasts_S16x128x1024_S2048x1024 (ix2 j e) (ix3 (colCond j) (colUnit j) e) ?_
  rw [Shape.rowMajor_val_three, Shape.rowMajor_val_two]
  show ((j.val / 128) * 128 + j.val % 128) * 1024 + e.val = j.val * 1024 + e.val
  have := Nat.div_add_mod j.val 128
  omega

/-- `[j, d]` of the stacked second layer is `W2[j / 128, d, j % 128]`. -/
theorem second_apply (c : Dev nD) (j : Fin 2048) (d : Fin 1024) :
    (V m c main_v7 : S2048x1024.Idx → EReal) (ix2 j d)
      = (m ((c.tc : Thread nD τ).loc main_arg4) : S16x1024x128.Idx → EReal) (ix3 (colCond j) d (colUnit j)) := by
  rw [V_second, truncf_apply]
  refine (shapeCast_apply _ shapeCasts_S16x128x1024_S2048x1024 (ix2 j d) (ix3 (colCond j) (colUnit j) d) ?_).trans ?_
  · rw [Shape.rowMajor_val_three, Shape.rowMajor_val_two]
    show ((j.val / 128) * 128 + j.val % 128) * 1024 + d.val = j.val * 1024 + d.val
    have := Nat.div_add_mod j.val 128
    omega
  · exact transpose_ix3_021_apply _ _ (colCond j) (colUnit j) d

/-- `[0, j]` of the bias row is `b1[j / 128, j % 128]`. -/
theorem bias_apply (c : Dev nD) (j : Fin 2048) :
    (V m c main_v8 : S1x2048.Idx → EReal) (ix2 (0 : Fin 1) j)
      = (m ((c.tc : Thread nD τ).loc main_arg3) : S16x128.Idx → EReal) (ix2 (colCond j) (colUnit j)) := by
  rw [V_bias]
  refine shapeCast_apply _ shapeCasts_S16x128_S1x2048 (ix2 (0 : Fin 1) j) (ix2 (colCond j) (colUnit j)) ?_
  rw [Shape.rowMajor_val_two, Shape.rowMajor_val_two]
  show (j.val / 128) * 128 + j.val % 128 = 0 * 2048 + j.val
  have := Nat.div_add_mod j.val 128
  omega

end Cert.KernelIdeal.HostPrefix

end
-- ==== Proof.Blocks.lean ====
/-
  From blocks to arrays. Point `t` of the sixteen stages rows `512·t … 512·t + 511` of `x` and of the word column,
  and the four weight arrays whole; what it writes back is rows `512·t …` of ONE function of the argument arrays,
  the normalised routed rows (and, beside it, the rows' sums of squares of `x`). The sixteen blocks tile the
  `8192` rows, so after the last point the two arrays ARE those functions.
-/
import proofs.«425657_j16071767622094_3_alg».proof.Proof.Gen.KernelIdeal.Frame
import proofs.«425657_j16071767622094_3_alg».proof.Proof.RowLaw
import proofs.«425657_j16071767622094_3_alg».proof.Proof.HostPrefix
import Idealize.ShloMosaic.Lib.Pipeline.Value

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.CondMlp

variable (m : (ℓ : Loc nD τ sig) → Buf (Elt Ideal) ℓ)

theorem hz : (![0, 0] : Fin 2 → Nat) = fun _ => 0 := funext fun a => by fin_cases a <;> rfl

/-- The printed index maps, decided over the sixteen points: the two row-blocked inputs and the two outputs sit
    at block `(t, 0)`, the four weight arrays at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 ∧ True :=
  (by decide +kernel : ∀ t : Fin grid0.N, _)

theorem point_lt (t : Fin cfg0.N) : t.val < 16 := by
  have h := t.isLt
  have hN : cfg0.N = 16 := N_0
  omega

/-! ## Each window's block, read -/

/-- Row `r` of the block of `x` at point `t` is row `512·t + r` of `x`. -/
theorem blk0_apply (c : Dev nD) (t : Fin cfg0.N) (r : Fin 512) (e : Fin 1024) (b : Fin 8192) (hb : b.val = t.val * 512 + r.val) :
    (iblk m c 0 t : S512x1024.Idx → EReal) (ix2 r e)
      = (m ((c.tc : Thread nD τ).loc main_arg0) : S8192x1024.Idx → EReal) (ix2 b e) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t 0 * 512 + 1 * r.val = b.val; rw [e0, hb]; omega
  | ⟨1, _⟩ => show win0_0.index t 1 * 1024 + 1 * e.val = e.val; rw [e1]; omega

/-- Row `r` of the block of the word column at point `t` is row `512·t + r` of the column. -/
theorem blk1_apply (c : Dev nD) (t : Fin cfg0.N) (r : Fin 512) (b : Fin 8192) (hb : b.val = t.val * 512 + r.val) :
    (iblk m c 1 t : S512x1.Idx → BitVec 32) (ix2 r (0 : Fin 1))
      = (V m c main_v1 : S8192x1.Idx → BitVec 32) (ix2 b (0 : Fin 1)) := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t 0 * 512 + 1 * r.val = b.val; rw [e0, hb]; omega
  | ⟨1, _⟩ => show win0_1.index t 1 * 1 + 1 * 0 = 0; rw [e1]

/-- Window 2's block is the whole of its array at every point. -/
theorem blk2_apply (c : Dev nD) (t : Fin cfg0.N) (e : Fin 1024) (j : Fin 2048) :
    (iblk m c 2 t : S1024x2048.Idx → EReal) (ix2 e j) = (V m c main_v4 : S1024x2048.Idx → EReal) (ix2 e j) := by
  obtain ⟨-, -, -, -, e0, e1, -⟩ := idx_facts t
  unfold iblk
  rw [View.read_apply]
  show V m c main_v4 _ = V m c main_v4 _
  congr 1
  funext a
  apply Fin.ext
  match a with
  | ⟨0, _⟩ => show win0_2.index t 0 * 1024 + 1 * e.val = e.val; rw [e0]; omega
  | ⟨1, _⟩ => show win0_2.index t 1 * 2048 + 1 * j.val = j.val; rw [e1]; omega

/-- Window 3's block is the whole of its array at every point. -/
theorem blk3_apply (c : Dev nD) (t : Fin cfg0.N) (z : Fin 1) (j : Fin 2048) :
    (iblk m c 3 t : S1x2048.Idx → EReal) (ix2 z j) = (V m c main_v8 : S1x2048.Idx → EReal) (ix2 z j) := by
  obtain ⟨-, -, -, -, -, -, e0, e1, -⟩ := idx_facts t
  unfold iblk
  rw [View.read_apply]
  show V m c main_v8 _ = V m c main_v8 _
  congr 1
  funext a
  apply Fin.ext
  match a with
  | ⟨0, _⟩ => show win0_3.index t 0 * 1 + 1 * z.val = z.val; rw [e0]; omega
  | ⟨1, _⟩ => show win0_3.index t 1 * 2048 + 1 * j.val = j.val; rw [e1]; omega

/-- Window 4's block is the whole of its array at every point. -/
theorem blk4_apply (c : Dev nD) (t : Fin cfg0.N) (j : Fin 2048) (d : Fin 1024) :
    (iblk m c 4 t : S2048x1024.Idx → EReal) (ix2 j d) = (V m c main_v7 : S2048x1024.Idx → EReal) (ix2 j d) := by
  obtain ⟨-, -, -, -, -, -, -, -, e0, e1, -⟩ := idx_facts t
  unfold iblk
  rw [View.read_apply]
  show V m c main_v7 _ = V m c main_v7 _
  congr 1
  funext a
  apply Fin.ext
  match a with
  | ⟨0, _⟩ => show win0_4.index t 0 * 2048 + 1 * j.val = j.val; rw [e0]; omega
  | ⟨1, _⟩ => show win0_4.index t 1 * 1024 + 1 * d.val = d.val; rw [e1]; omega

/-- Window 5's block is the whole of its array at every point. -/
theorem blk5_apply (c : Dev nD) (t : Fin cfg0.N) (k : Fin 16) (d : Fin 1024) :
    (iblk m c 5 t : S16x1024.Idx → EReal) (ix2 k d) = (V m c main_arg5 : S16x1024.Idx → EReal) (ix2 k d) := by
  obtain ⟨-, -, -, -, -, -, -, -, -, -, e0, e1, -⟩ := idx_facts t
  unfold iblk
  rw [View.read_apply]
  show V m c main_arg5 _ = V m c main_arg5 _
  congr 1
  funext a
  apply Fin.ext
  match a with
  | ⟨0, _⟩ => show win0_5.index t 0 * 16 + 1 * k.val = k.val; rw [e0]; omega
  | ⟨1, _⟩ => show win0_5.index t 1 * 1024 + 1 * d.val = d.val; rw [e1]; omega

/-! ## What a point writes back -/

/-- The six blocks at a point, under their literal types. -/
abbrev B0 (c : Dev nD) (t : Fin cfg0.N) : Vec Ideal S512x1024 .f32 := iblk m c 0 t
abbrev B1 (c : Dev nD) (t : Fin cfg0.N) : Vec Ideal S512x1 .i32 := iblk m c 1 t
abbrev B2 (c : Dev nD) (t : Fin cfg0.N) : Vec Ideal S1024x2048 .bf16 := iblk m c 2 t
abbrev B3 (c : Dev nD) (t : Fin cfg0.N) : Vec Ideal S1x2048 .f32 := iblk m c 3 t
abbrev B4 (c : Dev nD) (t : Fin cfg0.N) : Vec Ideal S2048x1024 .bf16 := iblk m c 4 t
abbrev B5 (c : Dev nD) (t : Fin cfg0.N) : Vec Ideal S16x1024 .f32 := iblk m c 5 t

/-- The normalised routed rows of the arguments as launched. -/
abbrev rowsOf (c : Dev nD) : S8192x1024.Idx → EReal :=
  resultArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The rows' sums of squares of `x` as launched. -/
abbrev sqOf (c : Dev nD) : S8192x1.Idx → EReal := Body.rowSqArr (m ((c.tc : Thread nD τ).loc main_arg0))

/-- Point `t` writes back rows `512·t …` of the normalised routed rows. -/
theorem flushed6_eq (c : Dev nD) (t : Fin cfg0.N) :
    (dats m 0 c).flushed 6 t = ((cfg0.win 6).blk t).view.read (Elt Ideal) (rowsOf m c) := by
  show (cfg0.win 6).cut (grid0.coords t) ((dats m 0 c).after 6 t) = _
  rw [after0_6]
  unfold out0_6
  rw [View.canon_unit_zero hz]
  simp only [View.ld_unit_zero (S := S512x1024) hz, View.ld_unit_zero (S := S512x1) hz, View.ld_unit_zero (S := S1024x2048) hz,
    View.ld_unit_zero (S := S1x2048) hz, View.ld_unit_zero (S := S2048x1024) hz, View.ld_unit_zero (S := S16x1024) hz]
  refine funext fun (j : S512x1024.Idx) => ?_
  obtain ⟨r, d, rfl⟩ : ∃ (r : Fin 512) (d : Fin 1024), j = ix2 r d := ⟨j 0, j 1, eq_ix2 j⟩
  obtain ⟨-, -, -, -, -, -, -, -, -, -, -, -, e60, e61, -⟩ := idx_facts t
  have ht := point_lt t
  have hb : t.val * 512 + r.val < 8192 := by have := r.isLt; omega
  have hemb : ((cfg0.win 6).blk t).view.emb (ix2 r d) = (ix2 (⟨t.val * 512 + r.val, hb⟩ : Fin 8192) d : S8192x1024.Idx) := by
    funext a
    apply Fin.ext
    match a with
    | ⟨0, _⟩ => show win0_6.index t 0 * 512 + 1 * r.val = t.val * 512 + r.val; rw [e60]; omega
    | ⟨1, _⟩ => show win0_6.index t 1 * 1024 + 1 * d.val = d.val; rw [e61]; omega
  show k0_pay1 (F := Ideal) (k0_pay3 (B0 m c t) (B1 m c t) (B2 m c t) (B3 m c t) (B4 m c t) (B5 m c t))
      (k0_pay4 (B0 m c t) (B1 m c t) (B2 m c t) (B3 m c t) (B4 m c t) (B5 m c t)) (ix2 r d)
    = rowsOf m c (((cfg0.win 6).blk t).view.emb (ix2 r d))
  rw [hemb]
  exact Body.stored_eq_result (B0 m c t) (B1 m c t) (B2 m c t) (B3 m c t) (B4 m c t) (B5 m c t)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) r d ⟨t.val * 512 + r.val, hb⟩
    (fun e => blk0_apply m c t r e _ rfl)
    ((blk1_apply m c t r _ rfl).trans (HostPrefix.words_apply m c _))
    (fun e j => (blk2_apply m c t e j).trans (HostPrefix.first_apply m c e j))
    (fun j => (blk3_apply m c t 0 j).trans (HostPrefix.bias_apply m c j))
    (fun j d' => (blk4_apply m c t j d').trans (HostPrefix.second_apply m c j d'))
    (fun k d' => (blk5_apply m c t k d').trans (congrFun (V_main_arg5 m c) (ix2 k d')))

/-- Point `t` writes back rows `512·t …` of the rows' sums of squares. -/
theorem flushed7_eq (c : Dev nD) (t : Fin cfg0.N) :
    (dats m 0 c).flushed 7 t = ((cfg0.win 7).blk t).view.read (Elt Ideal) (sqOf m c) := by
  show (cfg0.win 7).cut (grid0.coords t) ((dats m 0 c).after 7 t) = _
  rw [after0_7]
  unfold out0_7
  rw [View.canon_unit_zero hz]
  simp only [View.ld_unit_zero (S := S512x1024) hz]
  refine funext fun (j : S512x1.Idx) => ?_
  obtain ⟨r, z, rfl⟩ : ∃ (r : Fin 512) (z : Fin 1), j = ix2 r z := ⟨j 0, j 1, eq_ix2 j⟩
  obtain rfl : z = 0 := Subsingleton.elim _ _
  obtain ⟨-, -, -, -, -, -, -, -, -, -, -, -, -, -, e70, e71, -⟩ := idx_facts t
  have ht := point_lt t
  have hb : t.val * 512 + r.val < 8192 := by have := r.isLt; omega
  have hemb : ((cfg0.win 7).blk t).view.emb (ix2 r (0 : Fin 1)) = (ix2 (⟨t.val * 512 + r.val, hb⟩ : Fin 8192) (0 : Fin 1) : S8192x1.Idx) := by
    funext a
    apply Fin.ext
    match a with
    | ⟨0, _⟩ => show win0_7.index t 0 * 512 + 1 * r.val = t.val * 512 + r.val; rw [e70]; omega
    | ⟨1, _⟩ => show win0_7.index t 1 * 1 + 1 * 0 = 0; rw [e71]
  show k0_pay2 (F := Ideal) (B0 m c t) (ix2 r (0 : Fin 1)) = sqOf m c (((cfg0.win 7).blk t).view.emb (ix2 r (0 : Fin 1)))
  rw [hemb]
  exact Body.rowsq_eq (B0 m c t) (m ((c.tc : Thread nD τ).loc main_arg0)) r ⟨t.val * 512 + r.val, hb⟩ (fun e => blk0_apply m c t r e _ rfl)

/-! ## The sixteen blocks tile the rows -/

theorem idx_onto6 : ∀ q : Fin 16, ∃ t : Fin cfg0.N, win0_6.index t = ![q.val, 0] :=
  (by decide +kernel : ∀ q : Fin 16, ∃ t : Fin grid0.N, win0_6.index t = ![q.val, 0])
theorem idx_onto7 : ∀ q : Fin 16, ∃ t : Fin cfg0.N, win0_7.index t = ![q.val, 0] :=
  (by decide +kernel : ∀ q : Fin 16, ∃ t : Fin grid0.N, win0_7.index t = ![q.val, 0])

theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v9_0).slice (win0_6.rect t)).set ↔ _
  rw [View.set_slice_whole, Rect.mem_set_unit]
  exact Iff.rfl

theorem mem_blk7 (t : Fin cfg0.N) (i : S8192x1.Idx) :
    i ∈ ((cfg0.win 7).blk t).view.set ↔ ∀ a : Fin 2, win0_7.index t a * S512x1.size a ≤ (i a).val ∧ (i a).val < win0_7.index t a * S512x1.size a + S512x1.size a := by
  show i ∈ ((View.whole main_v9_1).slice (win0_7.rect t)).set ↔ _
  rw [View.set_slice_whole, Rect.mem_set_unit]
  exact Iff.rfl

/-- Row `i 0` lies in the block of point `(i 0) / 512`. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨t, ht⟩ := idx_onto6 ⟨(i 0).val / 512, by omega⟩
  have q0 : win0_6.index t (0 : Fin 2) = (i 0).val / 512 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

theorem cover7 (i : S8192x1.Idx) : ∃ t : Fin cfg0.N, (cfg0.win 7).flush t = true ∧ i ∈ ((cfg0.win 7).blk t).view.set := by
  have hi0 : (i 0).val < 8192 := (i 0).isLt
  have hi1 : (i 1).val < 1 := (i 1).isLt
  obtain ⟨t, ht⟩ := idx_onto7 ⟨(i 0).val / 512, by omega⟩
  have q0 : win0_7.index t (0 : Fin 2) = (i 0).val / 512 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1 ≤ (i 1).val ∧ (i 1).val < win0_7.index t (1 : Fin 2) * 1 + 1; omega

/-! ## The two arrays after the last point -/

theorem final_rows (c : Dev nD) : (dats m 0 c).arrAt 6 cfg0.N = rowsOf m c :=
  (dats m 0 c).arrAt_eq_of_cover 6 (rowsOf m c) (fun t _ => flushed6_eq m c t) cover6

theorem final_sq (c : Dev nD) : (dats m 0 c).arrAt 7 cfg0.N = sqOf m c :=
  (dats m 0 c).arrAt_eq_of_cover 7 (sqOf m c) (fun t _ => flushed7_eq m c t) cover7

end Cert.KernelIdeal.Blocks

end
-- ==== Proof.KernelRun.lean ====
/-
  The kernel program's run, read: after the sixteen points the first output array holds the normalised routed
  rows; the lines after the region add up the second output's column, which holds each row's sum of squares of `x`,
  so their square root is the Euclidean norm of all of `x`; the remaining result is the zero constant, and the
  arguments end as launched.
-/
import proofs.«425657_j16071767622094_3_alg».proof.Proof.Gen.KernelIdeal.Frame
import proofs.«425657_j16071767622094_3_alg».proof.Proof.Blocks
import Idealize.ShloMosaic.Lib.StableHlo.Run
import Idealize.ShloMosaic.PureOps.Ideal.Laws

noncomputable section

namespace Cert.KernelIdeal.KernelRun

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.CondMlp

variable (m : (ℓ : Loc nD τ sig) → Buf (Elt Ideal) ℓ) (ρ : Dev nD → PrngReg)

/-- The total of the column of row sums is the double sum, so its square root is the norm of all of `x`. -/
theorem sqrt_total (a0 : S8192x1024.Idx → EReal) :
    Host.sqrt (F := Ideal) (Host.reduceAdd (F := Ideal) (Body.rowSqArr a0) (constant (F := Ideal) S_ .f32 0x00000000#32)
      reducesTo_S8192x1_S_d0_1 h_S_) = embedArr a0 := by
  funext i
  have h1 : Host.reduceAdd (F := Ideal) (Body.rowSqArr a0) (constant (F := Ideal) S_ .f32 0x00000000#32) reducesTo_S8192x1_S_d0_1 h_S_ i
      = constant (F := Ideal) S_ .f32 0x00000000#32 (Shape.Idx.first h_S_) + ∑ j : S8192x1.Idx, Body.rowSqArr a0 j := by
    generalize Body.rowSqArr a0 = y
    simp only [Host.reduceAdd, Ideal.hostReduceAdd_def]
    exact Ideal.hostReduceAdd_total reducesTo_S8192x1_S_d0_1 (fun b => b.elim0) y _ i
  show FloatOps.hostUnary .sqrt (Host.reduceAdd (F := Ideal) (Body.rowSqArr a0) (constant (F := Ideal) S_ .f32 0x00000000#32) reducesTo_S8192x1_S_d0_1 h_S_ i)
    = embedNorm (cur2 a0)
  rw [h1, Ideal.hostUnary_sqrt_def, constant_apply, Ideal.ofBits_zero_f32, zero_add, sum_idx2]
  unfold embedNorm
  congr 1
  refine Finset.sum_congr rfl fun b _ => ?_
  rw [Fin.sum_univ_one]
  rfl

/-- The lines after the region leave the norm of all of `x` in the third result. -/
theorem tail_embed (c : Dev nD) :
    (Pipeline.afterTail₀ cfgs (dats m) 0 (V0 m) [hostOps1] c main_v11 : S_.Idx → EReal) = embedArr (m ((c.tc : Thread nD τ).loc main_arg0)) := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v9_1)
      = Blocks.sqOf m c :=
    (Pipeline.withArrays_arr spec0 launch0.win.arr_inj c _ _ 7).trans (Blocks.final_sq m c)
  rw [e]
  exact sqrt_total _

/-- … and the zero constant in the second. -/
theorem tail_zero (c : Dev nD) :
    (Pipeline.afterTail₀ cfgs (dats m) 0 (V0 m) [hostOps1] c main_cst_1 : S_.Idx → EReal)
      = constant (F := Ideal) S_ .f32 0x00000000#32 := by
  unfold Pipeline.afterTail₀
  show StableHlo.after hostOps1 _ (Proc.devRef .tc main_cst_1) = _
  after_results

/-- The run with every result named. -/
theorem run : θ_run defs (onTc (τ := τ) (main (F := Ideal))) ⟨m, fun _ => 0, ρ⟩ (fun r => ∀ c : Dev nD,
      r.2.mem ((c.tc : Thread nD τ).loc main_v9_0) = Blocks.rowsOf m c
      ∧ r.2.mem ((c.tc : Thread nD τ).loc main_cst_1) = constant (F := Ideal) S_ .f32 0x00000000#32
      ∧ r.2.mem ((c.tc : Thread nD τ).loc main_v11) = embedArr (m ((c.tc : Thread nD τ).loc main_arg0))
      ∧ r.2.mem ((c.tc : Thread nD τ).loc main_arg0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    have k0 : r.2.mem ((c.tc : Thread nD τ).loc main_arg0) = m ((c.tc : Thread nD τ).loc main_arg0) :=
      ((h c).1 0).trans (((dats m 0 c).arrAt_in 0 rfl _).trans ((A_eq m c 0).trans (V_main_arg0 m c)))
    ⟨((h c).1 6).trans (Blocks.final_rows m c),
      ((h c).2 main_cst_1 (Pipeline.mem_restRefs_of main_cst_1 (by decide) (by decide))).trans (tail_zero m c),
      ((h c).2 main_v11 (Pipeline.mem_restRefs_of main_v11 (by decide) (by decide))).trans (tail_embed m c),
      k0, k0,
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelIdeal.KernelRun

end
-- ==== Proof.RefValue.lean ====
/-
  The reference's two results as the specification's arrays: the gathered, normalised rows and the norm of `x`.

  The reference computes all sixteen two-layer maps on every sample, then picks for sample `b` the row
  `(c, b)` where `c` is the sample's condition word (moved up by sixteen when negative) and the second
  index is `b` itself; the pick clamps both indices into range. Under the hypothesis that every word reads
  non-negative the picked row is the specification's routed row, and the rest is its norm and the division.
-/
import proofs.«425657_j16071767622094_3_alg».proof.Proof.Gen.ReferenceIdeal.Read
import proofs.«425657_j16071767622094_3_alg».proof.Proof.Spec
import proofs.«425657_j16071767622094_3_alg».proof.Proof.Algebra
import Idealize.ShloMosaic.Lib.StableHlo.Predicate

noncomputable section

namespace Cert.ReferenceIdeal.RefValue

open Idealize.ShloMosaic Idealize.ShloMosaic.ValueIdx Cert.ReferenceIdeal Cert.ReferenceIdeal.Gen Cert.ReferenceIdeal.Read Cert.CondMlp

/-! ## The pick of one row out of the sixteen maps' results -/

/-- The pick's dimension numbers: both leading axes of the `[16, 8192, 1024]` operand are indexed and collapsed,
    the last axis is carried whole. -/
private abbrev G := gather_S16x8192x1024_S8192x2_S8192x1024_1_01_n_n_01_1_111024

/-- The pick at `(b, d)`: the operand at (the first index of row `b` read signed and clamped into `[0, 15]`,
    the second index of row `b` read signed and clamped into `[0, 8191]`, `d`). -/
private theorem gather_read {α : Type} (x : S16x8192x1024.Idx → α) (idx : IVec S8192x2 32) (b : Fin 8192) (d : Fin 1024) :
    Host.gather gather_S16x8192x1024_S8192x2_S8192x1024_1_01_n_n_01_1_111024 x idx (ix2 b d)
      = x (ix3 (⟨min (idx (ix2 b 0)).toInt.toNat 15, by omega⟩ : Fin 16)
          (⟨min (idx (ix2 b 1)).toInt.toNat 8191, by omega⟩ : Fin 8192) d) := by
  -- axis 0: an indexed, collapsed axis of extent 16 with slice size 1: the clamped first index, no offset
  have h0 : G.start (ix2 b d) idx (0 : Fin 3) + G.batchCoord (ix2 b d) (0 : Fin 3) + G.offCoord (ix2 b d) (0 : Fin 3)
      = min (idx (ix2 b 0)).toInt.toNat 15 := by
    rw [GatherDims.batchCoord_eq_zero _ _ _ List.not_mem_nil, Nat.add_zero,
      GatherDims.offCoord_eq_zero _ _ _ (fun h => ((GatherDims.mem_sKept _ _).mp h).1 (by decide)), Nat.add_zero]
    unfold GatherDims.start
    rw [dif_pos (show (0 : Fin 3) ∈ G.startIndexMap from by decide)]
    have hsi : G.siIdx (ix2 b d) ⟨List.idxOf (0 : Fin 3) G.startIndexMap, List.idxOf_lt_length_iff.2 (by decide)⟩
        = ix2 b 0 := by
      funext c; refine Fin.ext ?_
      match c with
      | ⟨0, _⟩ => rfl
      | ⟨1, _⟩ => rfl
    rw [hsi]
    rfl
  -- axis 1: likewise, extent 8192, the clamped second index
  have h1 : G.start (ix2 b d) idx (1 : Fin 3) + G.batchCoord (ix2 b d) (1 : Fin 3) + G.offCoord (ix2 b d) (1 : Fin 3)
      = min (idx (ix2 b 1)).toInt.toNat 8191 := by
    rw [GatherDims.batchCoord_eq_zero _ _ _ List.not_mem_nil, Nat.add_zero,
      GatherDims.offCoord_eq_zero _ _ _ (fun h => ((GatherDims.mem_sKept _ _).mp h).1 (by decide)), Nat.add_zero]
    unfold GatherDims.start
    rw [dif_pos (show (1 : Fin 3) ∈ G.startIndexMap from by decide)]
    have hsi : G.siIdx (ix2 b d) ⟨List.idxOf (1 : Fin 3) G.startIndexMap, List.idxOf_lt_length_iff.2 (by decide)⟩
        = ix2 b 1 := by
      funext c; refine Fin.ext ?_
      match c with
      | ⟨0, _⟩ => rfl
      | ⟨1, _⟩ => rfl
    rw [hsi]
    rfl
  -- axis 2: not indexed, carried whole: start 0, offset the result's second coordinate
  have h2 : G.start (ix2 b d) idx (2 : Fin 3) + G.batchCoord (ix2 b d) (2 : Fin 3) + G.offCoord (ix2 b d) (2 : Fin 3)
      = d.val := by
    rw [GatherDims.batchCoord_eq_zero _ _ _ List.not_mem_nil, Nat.add_zero]
    unfold GatherDims.start
    rw [dif_neg (show ¬ (2 : Fin 3) ∈ G.startIndexMap from by decide), Nat.zero_add]
    rfl
  unfold Host.gather
  congr 1
  funext a
  refine Fin.ext ?_
  match a with
  | ⟨0, _⟩ => exact h0
  | ⟨1, _⟩ => exact h1
  | ⟨2, _⟩ => exact h2

/-! ## The two index columns -/

/-- A signed comparison "below zero" of a word that reads non-negative is the bit 0. -/
private theorem slt_zero_of_nonneg (w : BitVec 32) (h : 0 ≤ w.toInt) : IntOp.cmpi .slt w 0#32 = 0#1 := by
  unfold IntOp.cmpi
  have h0 : (0#32 : BitVec 32).toInt = 0 := by decide
  have : w.slt 0#32 = false := by
    simp only [BitVec.slt, h0, decide_eq_false_iff_not, not_lt]; exact h
  simp only [this]; rfl

/-- Column 0 of the index table at row `b`: the condition word `c` where it is negative moved up by sixteen;
    a word that reads non-negative stays. -/
private theorem col0_read (x1 : (⟨S8192, .i32⟩ : BufTy).Contents (Elt Ideal)) (b : Fin 8192) (h : 0 ≤ (x1 (ix1 b)).toInt) :
    val_main_v22 (F := Ideal) x1 (ix2 b 0) = x1 (ix1 b) := by
  unfold val_main_v22
  rw [concatenate_pair_apply_left (t := S8192x2) (s₁ := S8192x1) (s₂ := S8192x1) (1 : Fin 2) _ _ _ (ix2 b (0 : Fin 2)) rfl
    (ix2 b (0 : Fin 1) : S8192x1.Idx) (fun c => match c with | ⟨0, _⟩ => rfl | ⟨1, _⟩ => rfl)]
  rw [val_main_v20_apply, val_main_v14_apply, val_main_v11_apply, val_main_v10_apply, val_main_c_apply]
  have e : idx_main_v20 (ix2 b (0 : Fin 1)) = ix1 b := by funext c; match c with | ⟨0, _⟩ => rfl
  rw [e, slt_zero_of_nonneg _ h, select_zero]

/-- Column 1 of the index table at row `b`: the row number, a word below `2 ^ 31`, which reads non-negative
    and so stays. -/
private theorem col1_read (x1 : (⟨S8192, .i32⟩ : BufTy).Contents (Elt Ideal)) (b : Fin 8192) :
    val_main_v22 (F := Ideal) x1 (ix2 b 1) = BitVec.ofNat 32 b.val := by
  unfold val_main_v22
  rw [concatenate_pair_apply_right (t := S8192x2) (s₁ := S8192x1) (s₂ := S8192x1) (1 : Fin 2) _ _ _ (ix2 b (1 : Fin 2)) rfl rfl
    (ix2 b (0 : Fin 1) : S8192x1.Idx)
    (fun c hc => match c, hc with | ⟨0, _⟩, _ => rfl | ⟨1, _⟩, hc => absurd rfl hc) rfl]
  rw [val_main_v21_apply, val_main_v19_apply, val_main_v16_apply, val_main_v15_apply, val_main_c_1_apply, val_main_v9_apply]
  have e : ((idx_main_v21 (ix2 b (0 : Fin 1))) 0).val = b.val := rfl
  rw [e, slt_zero_of_nonneg _ (by
    rw [StableHlo.Predicate.toInt_ofNat_small b.val (by have := b.isLt; omega)]; exact Int.natCast_nonneg _), select_zero]

/-- The picked array at `(b, d)` is the sixteen maps' results at (the clamped condition of `b`, `b`, `d`):
    for a word `w` that reads non-negative, `min w.toNat 15` is the specification's clamp of `w` to `[0, 15]`,
    and the clamp of `b` into `[0, 8191]` is `b`. -/
private theorem v23_read (x0 : (⟨S8192x1024, .f32⟩ : BufTy).Contents (Elt Ideal)) (x1 : (⟨S8192, .i32⟩ : BufTy).Contents (Elt Ideal))
    (x2 : (⟨S16x128x1024, .f32⟩ : BufTy).Contents (Elt Ideal)) (x3 : (⟨S16x128, .f32⟩ : BufTy).Contents (Elt Ideal))
    (x4 : (⟨S16x1024x128, .f32⟩ : BufTy).Contents (Elt Ideal)) (x5 : (⟨S16x1024, .f32⟩ : BufTy).Contents (Elt Ideal))
    (hc : ∀ b : Fin 8192, 0 ≤ (x1 (ix1 b)).toInt) (b : Fin 8192) (d : Fin 1024) :
    val_main_v23 (F := Ideal) x0 x1 x2 x3 x4 x5 (ix2 b d)
      = val_main_v8 (F := Ideal) x0 x2 x3 x4 x5 (ix3 (CondMlp.cond (x1 (ix1 b))) b d) := by
  unfold val_main_v23
  rw [gather_read]
  congr 1
  funext a
  refine Fin.ext ?_
  match a with
  | ⟨0, _⟩ =>
    show min (val_main_v22 (F := Ideal) x1 (ix2 b 0)).toInt.toNat 15 = (CondMlp.cond (x1 (ix1 b))).val
    rw [col0_read x1 b (hc b)]
    have h := hc b
    unfold CondMlp.cond
    show min (x1 (ix1 b)).toInt.toNat 15 = (min (max (x1 (ix1 b)).toInt 0) 15).toNat
    omega
  | ⟨1, _⟩ =>
    show min (val_main_v22 (F := Ideal) x1 (ix2 b 1)).toInt.toNat 8191 = b.val
    rw [col1_read x1 b, StableHlo.Predicate.toInt_ofNat_small b.val (by have := b.isLt; omega)]
    have := b.isLt
    omega
  | ⟨2, _⟩ => rfl

/-! ## The sixteen maps on every sample -/

/-- The two contractions with their biases at `(k, b, d)` are the specification's map `k` on sample `b`. The first
    contraction has the weights on the left: its products are commuted to meet `x b e * W1 k h e`. -/
private theorem v8_read (x0 : (⟨S8192x1024, .f32⟩ : BufTy).Contents (Elt Ideal))
    (x2 : (⟨S16x128x1024, .f32⟩ : BufTy).Contents (Elt Ideal)) (x3 : (⟨S16x128, .f32⟩ : BufTy).Contents (Elt Ideal))
    (x4 : (⟨S16x1024x128, .f32⟩ : BufTy).Contents (Elt Ideal)) (x5 : (⟨S16x1024, .f32⟩ : BufTy).Contents (Elt Ideal))
    (k : Fin 16) (b : Fin 8192) (d : Fin 1024) :
    val_main_v8 (F := Ideal) x0 x2 x3 x4 x5 (ix3 k b d)
      = mlp (cur2 x0) (cur3 x2) (cur2 x3) (cur3 x4) (cur2 x5) k b d := by
  -- where each stage reads its operands, by coordinates
  have e1 : ∀ (h : Fin 128) (e : Fin 1024),
      lidx_main_v0 (idx_main_v1 (lidx_main_v5 (ix3 k b d) h)) e = ix3 k h e := by
    intro h e; funext a; match a with | ⟨0, _⟩ => rfl | ⟨1, _⟩ => rfl | ⟨2, _⟩ => rfl
  have e2 : ∀ (h : Fin 128) (e : Fin 1024),
      ridx_main_v0 (idx_main_v1 (lidx_main_v5 (ix3 k b d) h)) e = ix2 b e := by
    intro h e; funext a; match a with | ⟨0, _⟩ => rfl | ⟨1, _⟩ => rfl
  have e3 : ∀ h : Fin 128, idx_main_v2 (idx_main_v3 (lidx_main_v5 (ix3 k b d) h)) = ix2 k h := by
    intro h; funext a; match a with | ⟨0, _⟩ => rfl | ⟨1, _⟩ => rfl
  have e4 : ∀ h : Fin 128, ridx_main_v5 (ix3 k b d) h = ix3 k d h := by
    intro h; funext a; match a with | ⟨0, _⟩ => rfl | ⟨1, _⟩ => rfl | ⟨2, _⟩ => rfl
  have e5 : idx_main_v6 (idx_main_v7 (ix3 k b d)) = ix2 k d := by
    funext a; match a with | ⟨0, _⟩ => rfl | ⟨1, _⟩ => rfl
  rw [val_main_v8_apply, val_main_v5_apply, val_main_v7_apply, val_main_v6_apply, e5, Ideal.addf_def]
  unfold CondMlp.mlp
  refine congrArg₂ (· + ·) (Finset.sum_congr rfl fun h _ => ?_) rfl
  rw [val_main_v4_apply, val_main_v1_apply, val_main_v0_apply, val_main_v3_apply, val_main_v2_apply, e3, e4, Ideal.addf_def]
  unfold CondMlp.hidden
  refine congrArg₂ (· * ·) (congrArg₂ (· + ·) (Finset.sum_congr rfl fun e _ => ?_) rfl) rfl
  rw [e1, e2]
  exact mul_comm _ _

/-! ## The two results -/

/-- With every condition word non-negative, the reference's first result is the normalised routed rows. -/
theorem result_eq (x0 : (⟨S8192x1024, .f32⟩ : BufTy).Contents (Elt Ideal)) (x1 : (⟨S8192, .i32⟩ : BufTy).Contents (Elt Ideal))
    (x2 : (⟨S16x128x1024, .f32⟩ : BufTy).Contents (Elt Ideal)) (x3 : (⟨S16x128, .f32⟩ : BufTy).Contents (Elt Ideal))
    (x4 : (⟨S16x1024x128, .f32⟩ : BufTy).Contents (Elt Ideal)) (x5 : (⟨S16x1024, .f32⟩ : BufTy).Contents (Elt Ideal))
    (hc : ∀ b : Fin 8192, 0 ≤ (x1 (ix1 b)).toInt) :
    val_main_v28 (F := Ideal) x0 x1 x2 x3 x4 x5 = resultArr x0 x1 x2 x3 x4 x5 := by
  funext i
  obtain ⟨b, d, rfl⟩ : ∃ (b : Fin 8192) (d : Fin 1024), i = ix2 b d := ⟨i 0, i 1, eq_ix2 i⟩
  -- the picked array is the routed rows
  have hg : ∀ d' : Fin 1024, val_main_v23 (F := Ideal) x0 x1 x2 x3 x4 x5 (ix2 b d')
      = routed (cur2 x0) (cur1 x1) (cur3 x2) (cur2 x3) (cur3 x4) (cur2 x5) b d' := by
    intro d'
    rw [v23_read x0 x1 x2 x3 x4 x5 hc, v8_read]
    rfl
  -- the sum of squares behind the norm at (b, d) runs over row b
  have es : ∀ k : Fin 1024, idx_main_call0_v1 (idx_main_call0_v2 (idx_main_v27 (ix2 b d))) k = ix2 b k := by
    intro k; funext a; match a with | ⟨0, _⟩ => rfl | ⟨1, _⟩ => rfl
  rw [val_main_v28_apply, val_main_v27_apply, val_main_v26_apply, val_main_v24_apply, val_main_call0_v2_apply,
    val_main_call0_v1_apply, val_main_call0_cst_apply, val_main_v25_apply, val_main_cst_apply]
  simp only [es, val_main_call0_v0_apply, hg]
  -- the sum starts from the word of zero; the added constant is the specification's word, left as it is
  rw [Ideal.hostDivf_def, Ideal.addf_def, Ideal.hostUnary_sqrt_def, Ideal.ofBits_def, Ideal.ofBits_def,
    Ideal.ofBits_zero_f32, zero_add]
  exact div_rowNorm (cur2 x0) (cur1 x1) (cur3 x2) (cur2 x3) (cur3 x4) (cur2 x5) b d

/-- The reference's third result is the norm of all of `x`. -/
theorem embed_eq (x0 : (⟨S8192x1024, .f32⟩ : BufTy).Contents (Elt Ideal)) :
    val_main_v29 (F := Ideal) x0 = embedArr x0 := by
  funext i
  -- the total sum over every index, from the word of zero, as the double sum over the two coordinates
  rw [val_main_v29_apply, val_main_call1_v1_apply, val_main_call1_cst_apply, Ideal.hostUnary_sqrt_def, Ideal.ofBits_def,
    Ideal.ofBits_zero_f32, zero_add, sum_idx2]
  rfl

end Cert.ReferenceIdeal.RefValue

end
-- ==== Proof.PreDecode.lean ====
/-
  The precondition, read: where it is all ones, every condition word is non-negative as a signed integer.
-/
import proofs.«425657_j16071767622094_3_alg».proof.Pre_finite_inputs
import proofs.«425657_j16071767622094_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Pre_finite_inputs.Decode

open Idealize.ShloMosaic Idealize.ShloMosaic.ValueIdx Cert.Pre_finite_inputs

variable [Cert.Pre_finite_inputs.Facts]

/-- Where the printed precondition is all ones, every condition word is non-negative. -/
theorem cond_nonneg (a0 : FVec Ideal S8192x1024 .f32) (a1 : IVec S8192 32) (a2 : FVec Ideal S16x128x1024 .f32)
    (a3 : FVec Ideal S16x128 .f32) (a4 : FVec Ideal S16x1024x128 .f32) (a5 : FVec Ideal S16x1024 .f32)
    (h : Cert.Pre_finite_inputs.fn (F := Ideal) a0 a1 a2 a3 a4 a5 = fun _ => 1#1) :
    ∀ b : Fin 8192, 0 ≤ (a1 (ix1 b)).toInt := by
  intro b
  -- the predicate at its one index; its last operation is the conjunction of everything before with `all (c ≥ 0)`
  have h0 := congrFun h ValueIdx.ix0
  dsimp only [Cert.Pre_finite_inputs.fn, Cert.Pre_finite_inputs.fn_part1, andi] at h0
  -- the right conjunct: the and-reduction of the compare words came out one
  have hall := (IntOp.andi_eq_one.1 h0).2
  -- so every compare word is one, in particular the one at `b`
  haveI : Subsingleton S_.Idx := ⟨fun a b => funext fun d => d.elim0⟩
  have hb := Host.reduce_andi_all _ _ _ _ _ hall (ix1 b)
  -- a compare word `c ≥ 0` that is one says the word is non-negative read signed
  -- (the zero it is compared with is the broadcast constant, read at `b`)
  have hge : (0#32 : BitVec 32).toInt ≤ (a1 (ix1 b)).toInt := IntOp.cmpi_sge.1 hb
  rwa [show (0#32 : BitVec 32).toInt = 0 from by decide] at hge

end Cert.Pre_finite_inputs.Decode

end
-- ==== Proof.lean ====
/-
  A condition-routed two-layer map with row normalisation, against its dense reference.

  Each of 8192 samples carries an integer condition `c`; sixteen two-layer affine maps (1024 → 128 → 1024) are
  given. The reference applies all sixteen maps to every sample, picks for sample `b` the row of map `c[b]`,
  divides it by its Euclidean norm plus a small constant, and also returns the Euclidean norm of all of `x`.
  The kernel clips `c` to `[0, 15]`, lays the sixteen maps side by side along one axis of length `2048 = 16 · 128`,
  computes the wide first layer once, zeroes the columns of the other conditions, contracts the masked row with the
  stacked second layer, recovers the second bias by a one-hot sum over the sixteen conditions, and multiplies the
  row by the reciprocal of its norm; row sums of squares of `x`, one per sample, are summed after the kernel.

  Over the extended reals the two agree wherever every condition is non-negative (the precondition's added
  conjunct): a masked term is `0 · w = 0`, the surviving block of 128 columns is the selected map's hidden layer,
  the one-hot sum is the selected bias row, the norm plus the constant is positive so dividing by it is
  multiplying by its reciprocal, and sums regroup freely. No finiteness of the inputs is used. For a negative
  condition the reference's index wraps around while the kernel's clip gives `0`, which is why that conjunct
  is there; above 15 both clamp to 15.

  The pieces: the specification and the algebraic law (Proof/Spec, Proof/Algebra), the kernel body's stored
  values at an index (Proof/Payload, Proof/RowLaw), the arrays the lines before the kernel repack
  (Proof/HostPrefix), blocks to arrays (Proof/Blocks), the kernel program's run (Proof/KernelRun), the
  reference's results at an index (Proof/RefValue), and the precondition read (Proof/PreDecode).
-/
import proofs.«425657_j16071767622094_3_alg».proof.Defs
import proofs.«425657_j16071767622094_3_alg».proof.Proof.Gen.Kernel
import proofs.«425657_j16071767622094_3_alg».proof.Proof.Gen.Kernel.Skeleton
import proofs.«425657_j16071767622094_3_alg».proof.Proof.Gen.Kernel.Launch
import proofs.«425657_j16071767622094_3_alg».proof.Proof.Gen.Kernel.Points
import proofs.«425657_j16071767622094_3_alg».proof.Proof.Gen.Kernel.Frame
import proofs.«425657_j16071767622094_3_alg».proof.Proof.Gen.KernelIdeal
import proofs.«425657_j16071767622094_3_alg».proof.Proof.Gen.KernelIdeal.Skeleton
import proofs.«425657_j16071767622094_3_alg».proof.Proof.Gen.KernelIdeal.Launch
import proofs.«425657_j16071767622094_3_alg».proof.Proof.Gen.KernelIdeal.Points
import proofs.«425657_j16071767622094_3_alg».proof.Proof.Gen.KernelIdeal.Frame
import proofs.«425657_j16071767622094_3_alg».proof.Proof.Gen.ReferenceIdeal
import proofs.«425657_j16071767622094_3_alg».proof.Proof.Gen.Pre_finite_inputs
import proofs.«425657_j16071767622094_3_alg».proof.Proof.Gen.ReferenceIdeal.Run
import proofs.«425657_j16071767622094_3_alg».proof.Proof.Gen.ReferenceIdeal.Read
import proofs.«425657_j16071767622094_3_alg».proof.Proof.KernelRun
import proofs.«425657_j16071767622094_3_alg».proof.Proof.RefValue
import proofs.«425657_j16071767622094_3_alg».proof.Proof.PreDecode
import Idealize.ShloMosaic.Adequacy
import Idealize.ShloMosaic.Init

noncomputable section

namespace Cert.Proof

open Idealize.ShloMosaic Idealize.SL.Sem Idealize.ShloMosaic.ValueIdx

/-- The word-level kernel program runs and keeps its arguments. -/
theorem frame_kernel : @Cert.frame_Kernel Cert.Kernel.Gen.facts Cert.Pre_finite_inputs.Gen.facts :=
  fun m ρ _ => Cert.Kernel.Gen.frame m ρ

/-- So does the kernel program read over the extended reals. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run with the results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2.2.2)
    (Cert.ReferenceIdeal.Value.run (F := Ideal) m ρ)

/-- From memories agreeing on the arguments, with every condition non-negative, both programs end with the
    normalised routed rows, the zero constant, the norm of all of `x`, and `x` itself. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Blocks.rowsOf m c,
    fun _ => constant (F := Ideal) Cert.KernelIdeal.S_ .f32 0x00000000#32,
    fun c => Cert.CondMlp.embedArr (m ((c.tc : Thread Cert.KernelIdeal.nD Cert.KernelIdeal.τ).loc Cert.KernelIdeal.main_arg0)),
    fun c => m ((c.tc : Thread Cert.KernelIdeal.nD Cert.KernelIdeal.τ).loc Cert.KernelIdeal.main_arg0),
    Cert.KernelIdeal.KernelRun.run m ρ, ?_⟩
  refine (θ_run Cert.ReferenceIdeal.defs _ _).mono (fun r h c => ?_) (Cert.ReferenceIdeal.Value.run (F := Ideal) m' ρ')
  obtain ⟨e0, e1, e2, e3, e4, e5⟩ := hagree c
  have hc : ∀ b : Fin 8192, 0 ≤ ((m ((c.tc : Thread Cert.KernelIdeal.nD Cert.KernelIdeal.τ).loc Cert.KernelIdeal.main_arg1)) (ix1 b)).toInt :=
    Cert.Pre_finite_inputs.Decode.cond_nonneg _ _ _ _ _ _ (hpre c)
  refine ⟨(h c).1.trans ?_, (h c).2.1, (h c).2.2.1.trans ?_, (h c).2.2.2.1.trans e0, (h c).2.2.2.2⟩
  · rw [Cert.ReferenceIdeal.Read.val_main_v28_eq, e0, e1, e2, e3, e4, e5]
    exact Cert.ReferenceIdeal.RefValue.result_eq _ _ _ _ _ _ hc
  · rw [Cert.ReferenceIdeal.Read.val_main_v29_eq, e0]
    exact Cert.ReferenceIdeal.RefValue.embed_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
